-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S512x2048 : Shape := ⟨2, ![512, 2048]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2048x128 : Shape := ⟨2, ![2048, 128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2048x128 : S_.BroadcastsInDim S2048x128 (![] : Fin 0 → Fin S2048x128.rank)
  reducesTo_S2048x128_S_d0_1 : S2048x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S256x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x1 .f32 := Host.absf main_arg18
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S2048x128 .f32 := Host.absf main_arg15
  let main_cst_24 : FVec F S_ .f32 := constant S_ .f32 0x7F800000#32
  let main_v65 : FVec F S2048x128 .f32 := broadcastInDim S2048x128 ![] bcast_S_S2048x128 main_cst_24
  let main_v66 : IVec S2048x128 1 := cmpf .olt main_v64 main_v65
  let main_c_25 : IVec S_ 1 := constantI S_ 1 1#1
  let main_v67 : IVec S_ 1 := (fun x v => Host.reduce IntOp.andi x v reducesTo_S2048x128_S_d0_1 h_S_) main_v66 main_c_25
  fn_part4 (F := F) main_arg16 main_arg17 main_arg18 main_arg19 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S512x2048 .f32) (main_arg2 : IVec S2x1600000 32) (main_arg3 : IVec S100000 32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S2048x128 .f32) (main_arg16 : FVec F S128 .f32) (main_arg17 : FVec F S128 .f32) (main_arg18 : FVec F S256x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S512x2048 : Shape := ⟨2, ![512, 2048]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2048x128 : Shape := ⟨2, ![2048, 128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S2000x128 : Shape := ⟨2, ![2000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x256 : Shape := ⟨2, ![512, 256]⟩
abbrev S1x1 : Shape := ⟨2, ![1, 1]⟩

abbrev nBuf : Space → Nat
  | .hbm => 70
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S512x2048, .f32⟩
  | .hbm, ⟨2, _⟩ => ⟨S2x1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S2048x128, .f32⟩
  | .hbm, ⟨16, _⟩ => ⟨S128, .f32⟩
  | .hbm, ⟨17, _⟩ => ⟨S128, .f32⟩
  | .hbm, ⟨18, _⟩ => ⟨S256x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S512x128, .f32⟩
  | .hbm, ⟨55, _⟩ => ⟨S100000x1, .i32⟩
  | .hbm, ⟨56, _⟩ => ⟨S512x128, .f32⟩
  | .hbm, ⟨57, _⟩ => ⟨S_, .f32⟩
  | .hbm, ⟨58, _⟩ => ⟨S100000, .f32⟩
  | .hbm, ⟨59, _⟩ => ⟨S_, .f32⟩
  | .hbm, ⟨60, _⟩ => ⟨S512, .f32⟩
  | .hbm, ⟨61, _⟩ => ⟨S100000x1, .i32⟩
  | .hbm, ⟨62, _⟩ => ⟨S512, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S512x1, .f32⟩
  | .hbm, ⟨67, _⟩ => ⟨S512x128, .f32⟩
  | .hbm, ⟨68, _⟩ => ⟨S512x128, .f32⟩
  | .hbm, ⟨69, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | .local _ .vmem, ⟨27, _⟩ => ⟨S512x2048, .f32⟩
  | .local _ .vmem, ⟨28, _⟩ => ⟨S2048x128, .f32⟩
  | .local _ .vmem, ⟨29, _⟩ => ⟨S128, .f32⟩
  | .local _ .vmem, ⟨30, _⟩ => ⟨S128, .f32⟩
  | .local _ .vmem, ⟨31, _⟩ => ⟨S512x128, .f32⟩
  | .local _ .vmem, ⟨32, _⟩ => ⟨S256x1, .f32⟩
  | .local _ .vmem, ⟨33, _⟩ => ⟨S1, .f32⟩
  | .local _ .vmem, ⟨34, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S2000x128_S2000x128 : S2000x128.ShapeCasts S2000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x2048_S512x2048_0_0 : ∀ a, (![0, 0] : Fin 2 → Nat) a + S512x2048.size a ≤ S512x2048.size a
  h_S512x2048 : 0 < S512x2048.numel
  inb_S2048x128_S2048x128_0_0 : ∀ a, (![0, 0] : Fin 2 → Nat) a + S2048x128.size a ≤ S2048x128.size a
  h_S2048x128 : 0 < S2048x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S512x128_S512x128_S512x256_d1 : Shape.Concatenates [S512x128, S512x128] S512x256 1
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x2048_S2048x128_S512x128_1_0_0_1_n_n_wf : DotDims.WF S512x2048 S2048x128 S512x128 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S512x2048.size a
  hwx3_0 : ∀ i : grid3.Coords, EltTy.bits .f32 = 32 ∨ (Rect.block (s := S512x2048) S512x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .f32 = 32 ∨ (Rect.block (s := S2048x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S512x128.size a
  hwx3_4 : ∀ i : grid3.Coords, EltTy.bits .f32 = 32 ∨ (Rect.block (s := S512x128) S512x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x1.size a ≤ S256x1.size a
  hwx3_5 : ∀ i : grid3.Coords, EltTy.bits .f32 = 32 ∨ (Rect.block (s := S256x1) S256x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S512x1.size a
  hwx3_7 : ∀ i : grid3.Coords, EltTy.bits .f32 = 32 ∨ (Rect.block (s := S512x1) S512x1.size (cc3_transform_7 i) (hinb3_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S512x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S512x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S256x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S512x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S512x2048 : Shape := ⟨2, ![512, 2048]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2048x128 : Shape := ⟨2, ![2048, 128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x256 : Shape := ⟨2, ![512, 256]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S512x2048, .f32⟩
  | .hbm, ⟨2, _⟩ => ⟨S2x1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S2048x128, .f32⟩
  | .hbm, ⟨16, _⟩ => ⟨S128, .f32⟩
  | .hbm, ⟨17, _⟩ => ⟨S128, .f32⟩
  | .hbm, ⟨18, _⟩ => ⟨S256x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .i1⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .i1⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .i1⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S512x128, .f32⟩
  | .hbm, ⟨89, _⟩ => ⟨S100000x1, .i32⟩
  | .hbm, ⟨90, _⟩ => ⟨S512x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S512, .f32⟩
  | .hbm, ⟨95, _⟩ => ⟨S100000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x128, .f32⟩
  | .hbm, ⟨102, _⟩ => ⟨S512x128, .f32⟩
  | .hbm, ⟨103, _⟩ => ⟨S512x128, .f32⟩
  | .hbm, ⟨104, _⟩ => ⟨S1x128, .f32⟩
  | .hbm, ⟨105, _⟩ => ⟨S512x128, .f32⟩
  | .hbm, ⟨106, _⟩ => ⟨S512x128, .f32⟩
  | .hbm, ⟨107, _⟩ => ⟨S_, .f32⟩
  | .hbm, ⟨108, _⟩ => ⟨S512x128, .f32⟩
  | .hbm, ⟨109, _⟩ => ⟨S512x128, .i1⟩
  | .hbm, ⟨110, _⟩ => ⟨S1x128, .f32⟩
  | .hbm, ⟨111, _⟩ => ⟨S512x128, .f32⟩
  | .hbm, ⟨112, _⟩ => ⟨S512x128, .f32⟩
  | .hbm, ⟨113, _⟩ => ⟨S512x128, .f32⟩
  | .hbm, ⟨114, _⟩ => ⟨S512x256, .f32⟩
  | .hbm, ⟨115, _⟩ => ⟨S512x1, .f32⟩
  | .hbm, ⟨116, _⟩ => ⟨S1x1, .f32⟩
  | .hbm, ⟨117, _⟩ => ⟨S512x1, .f32⟩
  | .hbm, ⟨118, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  concatenates_S512x128_S512x128_S512x256_d1 : Shape.Concatenates [S512x128, S512x128] S512x256 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x2048_S2048x128_S512x128_1_0_0_1_n_n_wf : DotDims.WF S512x2048 S2048x128 S512x128 [1] [0] [0] [1] [] []
  dot_S512x256_S256x1_S512x1_1_0_0_1_n_n_wf : DotDims.WF S512x256 S256x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.Stages.lean ====
/-
  The computation both programs perform, cut into the five stages that the kernel's program computes either in one
  pallas region or in one stretch of host operations, each as a function of the ARRAYS it reads:

    lin  x W b a          = prelu (x · W + b) a                       a dense layer with a learned negative slope
    agg  h e              = Σ over edges (s → d) of row s of h, into row d   (gather, then scatter-add)
    sage g h Wl bl Wr a   = prelu ((g · Wl + bl) + h · Wr) a          the dense half of a sum-aggregating graph convolution
    pool h batch          = (segment sums of h by graph) / max(segment sizes, 1)
    head fp Wf bf af p Wp bp = [p | prelu (fp · Wf + bf) af] · Wp + bp

  where prelu y a = y where y > 0, a · y elsewhere (a broadcast along rows). The stages are spelt with the host
  operations of the reference program, so that the reference's own staged values are these functions on the nose;
  the kernel's regions are proved to compute the same functions elsewhere.
-/
import proofs.«131736_j56994216017995_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- An array of the given shape and element type. -/
abbrev Arr (F : FTy → Type) (S : Shape) (e : EltTy) := (⟨S, e⟩ : BufTy).Contents (Elt F)

/-- A length-128 vector laid along every one of the 100000 rows. -/
def rowN (v : Arr F S128 .f32) : Arr F S100000x128 .f32 :=
  broadcastInDim S100000x128 ![0, 1] bcast_S1x128_S100000x128_0_1 (broadcastInDim S1x128 ![1] bcast_S128_S1x128_1 v)

/-- The all-zero [100000,128] array. -/
def zeroN : Arr F S100000x128 .f32 :=
  broadcastInDim S100000x128 ![] bcast_S_S100000x128 (constant S_ .f32 0x00000000#32)

/-- `y` where positive, `a · y` elsewhere, the slope `a` per column. -/
def preluN (y : Arr F S100000x128 .f32) (a : Arr F S128 .f32) : Arr F S100000x128 .f32 :=
  select (cmpf .ogt y zeroN) y (mulf (rowN a) y)

/-- The input layer: `prelu (x · W + b) a`. -/
def lin (x : Arr F S100000x128 .f32) (W : Arr F S128x128 .f32) (b a : Arr F S128 .f32) : Arr F S100000x128 .f32 :=
  preluN (addf (Host.dotGeneral dot_S100000x128_S128x128_S100000x128_1_0_0_1_n_n none x W) (rowN b)) a

/-- Row 0 of the edge list: each edge's source node. -/
def src (e : Arr F S2x1600000 .i32) : Arr F S1600000 .i32 :=
  shapeCast _ (extractStridedSlice S1x1600000 ![0, 0] e slices_S2x1600000_S1x1600000_0_0) shapeCasts_S1x1600000_S1600000

/-- Row 1 of the edge list: each edge's destination node. -/
def dst (e : Arr F S2x1600000 .i32) : Arr F S1600000 .i32 :=
  shapeCast _ (extractStridedSlice S1x1600000 ![1, 0] e slices_S2x1600000_S1x1600000_1_0) shapeCasts_S1x1600000_S1600000

/-- The source nodes with a negative index counted from the end (`s + 100000`). -/
def srcN (e : Arr F S2x1600000 .i32) : Arr F S1600000 .i32 :=
  select (cmpi .slt (src e) (broadcastInDim S1600000 ![] bcast_S_S1600000 (constantI S_ 32 0#32)))
    (addi (src e) (broadcastInDim S1600000 ![] bcast_S_S1600000 (constantI S_ 32 100000#32))) (src e)

/-- Message passing with sum aggregation: row `d` of the result is the sum, over the edges into `d`, of the
    source node's row of `h`. -/
def agg (h : Arr F S100000x128 .f32) (e : Arr F S2x1600000 .i32) : Arr F S100000x128 .f32 :=
  Host.scatterAdd scatter_S100000x128_S1600000x1_S1600000x128_1_0_0_1 zeroN
    (broadcastInDim S1600000x1 ![0] bcast_S1600000_S1600000x1_0 (dst e))
    (Host.gather gather_S100000x128_S1600000x1_S1600000x128_1_0_n_n_0_1_1128 h
      (broadcastInDim S1600000x1 ![0] bcast_S1600000_S1600000x1_0 (srcN e)))

/-- The dense half of the convolution: `prelu ((g · Wl + bl) + h · Wr) a`. -/
def sage (g h : Arr F S100000x128 .f32) (Wl : Arr F S128x128 .f32) (bl : Arr F S128 .f32) (Wr : Arr F S128x128 .f32)
    (a : Arr F S128 .f32) : Arr F S100000x128 .f32 :=
  preluN (addf (addf (Host.dotGeneral dot_S100000x128_S128x128_S100000x128_1_0_0_1_n_n none g Wl) (rowN bl))
    (Host.dotGeneral dot_S100000x128_S128x128_S100000x128_1_0_0_1_n_n none h Wr)) a

/-- The number of nodes of each graph, at least one. -/
def counts (batch : Arr F S100000 .i32) : Arr F S512 .f32 :=
  maximumf (Host.scatterAdd scatter_S512_S100000x1_S100000_n_0_0_1
      (broadcastInDim S512 ![] bcast_S_S512 (constant S_ .f32 0x00000000#32))
      (broadcastInDim S100000x1 ![0] bcast_S100000_S100000x1_0 batch)
      (broadcastInDim S100000 ![] bcast_S_S100000 (constant S_ .f32 0x3F800000#32)))
    (broadcastInDim S512 ![] bcast_S_S512 (constant S_ .f32 0x3F800000#32))

/-- Mean pooling by graph: the sum of a graph's node rows over its node count (at least one). -/
def pool (h : Arr F S100000x128 .f32) (batch : Arr F S100000 .i32) : Arr F S512x128 .f32 :=
  Host.divf (Host.scatterAdd scatter_S512x128_S100000x1_S100000x128_1_0_0_1
      (broadcastInDim S512x128 ![] bcast_S_S512x128 (constant S_ .f32 0x00000000#32))
      (broadcastInDim S100000x1 ![0] bcast_S100000_S100000x1_0 batch) h)
    (broadcastInDim S512x128 ![0, 1] bcast_S512x1_S512x128_0_1 (broadcastInDim S512x1 ![0] bcast_S512_S512x1_0 (counts batch)))

/-- A length-128 vector laid along every one of the 512 rows. -/
def rowG (v : Arr F S128 .f32) : Arr F S512x128 .f32 :=
  broadcastInDim S512x128 ![0, 1] bcast_S1x128_S512x128_0_1 (broadcastInDim S1x128 ![1] bcast_S128_S1x128_1 v)

/-- The fingerprint embedding: `prelu (fp · Wf + bf) af`. -/
def fpEmb (fp : Arr F S512x2048 .f32) (Wf : Arr F S2048x128 .f32) (bf af : Arr F S128 .f32) : Arr F S512x128 .f32 :=
  select (cmpf .ogt (addf (Host.dotGeneral dot_S512x2048_S2048x128_S512x128_1_0_0_1_n_n none fp Wf) (rowG bf))
      (broadcastInDim S512x128 ![] bcast_S_S512x128 (constant S_ .f32 0x00000000#32)))
    (addf (Host.dotGeneral dot_S512x2048_S2048x128_S512x128_1_0_0_1_n_n none fp Wf) (rowG bf))
    (mulf (rowG af) (addf (Host.dotGeneral dot_S512x2048_S2048x128_S512x128_1_0_0_1_n_n none fp Wf) (rowG bf)))

/-- The output layer on the pooled graph features joined with the fingerprint embedding: `[p | emb] · Wp + bp`. -/
def head (fp : Arr F S512x2048 .f32) (Wf : Arr F S2048x128 .f32) (bf af : Arr F S128 .f32) (p : Arr F S512x128 .f32)
    (Wp : Arr F S256x1 .f32) (bp : Arr F S1 .f32) : Arr F S512x1 .f32 :=
  addf (Host.dotGeneral dot_S512x256_S256x1_S512x1_1_0_0_1_n_n none
      (concatenate S512x256 1 [⟨S512x128, p⟩, ⟨S512x128, fpEmb fp Wf bf af⟩] concatenates_S512x128_S512x128_S512x256_d1) Wp)
    (broadcastInDim S512x1 ![0, 1] bcast_S1x1_S512x1_0_1 (broadcastInDim S1x1 ![1] bcast_S1_S1x1_1 bp))

/-! ## The whole network as the composition of its stages -/

/-- Node features after the first convolution. -/
def h1 (x : Arr F S100000x128 .f32) (e : Arr F S2x1600000 .i32) (W0 : Arr F S128x128 .f32) (b0 a0 : Arr F S128 .f32)
    (Wl1 : Arr F S128x128 .f32) (bl1 : Arr F S128 .f32) (Wr1 : Arr F S128x128 .f32) (a1 : Arr F S128 .f32) : Arr F S100000x128 .f32 :=
  sage (agg (lin x W0 b0 a0) e) (lin x W0 b0 a0) Wl1 bl1 Wr1 a1

/-- Node features after the second convolution. -/
def h2 (x : Arr F S100000x128 .f32) (e : Arr F S2x1600000 .i32) (W0 : Arr F S128x128 .f32) (b0 a0 : Arr F S128 .f32)
    (Wl1 : Arr F S128x128 .f32) (bl1 : Arr F S128 .f32) (Wr1 : Arr F S128x128 .f32) (a1 : Arr F S128 .f32)
    (Wl2 : Arr F S128x128 .f32) (bl2 : Arr F S128 .f32) (Wr2 : Arr F S128x128 .f32) (a2 : Arr F S128 .f32) : Arr F S100000x128 .f32 :=
  sage (agg (h1 x e W0 b0 a0 Wl1 bl1 Wr1 a1) e) (h1 x e W0 b0 a0 Wl1 bl1 Wr1 a1) Wl2 bl2 Wr2 a2

/-- The network's output, one number per graph. -/
def G (x : Arr F S100000x128 .f32) (fp : Arr F S512x2048 .f32) (e : Arr F S2x1600000 .i32) (batch : Arr F S100000 .i32)
    (W0 : Arr F S128x128 .f32) (b0 a0 : Arr F S128 .f32)
    (Wl1 : Arr F S128x128 .f32) (bl1 : Arr F S128 .f32) (Wr1 : Arr F S128x128 .f32) (a1 : Arr F S128 .f32)
    (Wl2 : Arr F S128x128 .f32) (bl2 : Arr F S128 .f32) (Wr2 : Arr F S128x128 .f32) (a2 : Arr F S128 .f32)
    (Wf : Arr F S2048x128 .f32) (bf af : Arr F S128 .f32) (Wp : Arr F S256x1 .f32) (bp : Arr F S1 .f32) : Arr F S512x1 .f32 :=
  head fp Wf bf af (pool (h2 x e W0 b0 a0 Wl1 bl1 Wr1 a1 Wl2 bl2 Wr2 a2) batch) Wp bp

end Cert.Spec

end
-- ==== Proof.Region0.lean ====
import proofs.«131736_j56994216017995_1_alg».proof.Proof.Gen.KernelIdeal.Frame
import proofs.«131736_j56994216017995_1_alg».proof.Proof.Stages
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KVal.R0

open Idealize.ShloMosaic Idealize.ShloMosaic.TcCoe Idealize.SL.Sem Idealize.ShloMosaic.ValueIdx
open Idealize.ShloMosaic.Pipeline (Dat)

/-! ## One entry of the input layer -/

/-- One entry of the input layer, from the row of the features, the column of the weights and the entries of the
    bias and of the slope it depends on: `y` where `y > 0`, `a · y` elsewhere, with `y = Σ k, xr k · wc k + b`. -/
def linEntry (xr wc : Fin 128 → EReal) (b a : EReal) : EReal :=
  Scalar.select (FloatOps.cmpf (F := Ideal) (φ := .f32) .ogt ((∑ k : Fin 128, xr k * wc k) + b) (FloatOps.ofBits (F := Ideal) .f32 0x00000000#32))
    ((∑ k : Fin 128, xr k * wc k) + b) (a * ((∑ k : Fin 128, xr k * wc k) + b))

/-! ## The input layer of whole arrays, read at an index -/

section Reference

open Cert.ReferenceIdeal Cert.ReferenceIdeal.Gen

-- the product's operand indices at output index `i` and contraction index `q`, axis by axis
theorem lhs_dg_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_dg_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_dg_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_dg_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The reference's product of the features with the weights at row `r` and column `q`: the sum over the contracted axis. -/
theorem dg_apply (x : FVec Ideal S100000x128 .f32) (w : FVec Ideal S128x128 .f32) (r : Fin 100000) (q : Fin 128) :
    Host.dotGeneral dot_S100000x128_S128x128_S100000x128_1_0_0_1_n_n none x w (ix2 r q)
      = ∑ k : Fin 128, x (ix2 r k) * w (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact lhs_dg_0 _ _
    | ⟨1, _⟩ => exact (lhs_dg_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (rhs_dg_0 _ _).trans hk
    | ⟨1, _⟩ => exact rhs_dg_1 _ _)
  rw [el, er]

/-- A length-128 vector laid along the 100000 rows reads, at row `r` and column `q`, its entry `q`. -/
theorem rowN_apply {F : FTy → Type} [FloatOps F] (v : Cert.Spec.Arr F S128 .f32) (r : Fin 100000) (q : Fin 128) :
    Cert.Spec.rowN v (ix2 r q) = v (ix1 q) := by
  unfold Cert.Spec.rowN
  refine (broadcastInDim_apply _ bcast_S1x128_S100000x128_0_1 _ (ix2 r q) (ix2 (0 : Fin 1) q) (fun a => ?_)).trans ?_
  · match a with
    | ⟨0, _⟩ => show (0 : Nat) = if (1 : Nat) = 1 then 0 else r.val; rw [if_pos rfl]
    | ⟨1, _⟩ => show q.val = if (128 : Nat) = 1 then 0 else q.val; rw [if_neg (by decide)]
  · exact broadcastInDim_apply _ bcast_S128_S1x128_1 v (ix2 (0 : Fin 1) q) (ix1 q) (fun a => match a with
      | ⟨0, _⟩ => by show q.val = if (128 : Nat) = 1 then 0 else q.val; rw [if_neg (by decide)])

/-- The all-zero array reads the zero word everywhere. -/
theorem zeroN_apply {F : FTy → Type} [FloatOps F] (i : S100000x128.Idx) :
    Cert.Spec.zeroN (F := F) i = FloatOps.ofBits .f32 0x00000000#32 := by
  unfold Cert.Spec.zeroN
  exact broadcastInDim_apply _ bcast_S_S100000x128 _ i ix0 (fun a => a.elim0)

/-- The input layer at row `r` and column `q`: the entry from row `r` of the features, column `q` of the weights,
    entry `q` of the bias and of the slope. -/
theorem lin_apply (x : Cert.Spec.Arr Ideal S100000x128 .f32) (W : Cert.Spec.Arr Ideal S128x128 .f32) (b a : Cert.Spec.Arr Ideal S128 .f32)
    (r : Fin 100000) (q : Fin 128) :
    Cert.Spec.lin (F := Ideal) x W b a (ix2 r q) = linEntry (fun k => x (ix2 r k)) (fun k => W (ix2 k q)) (b (ix1 q)) (a (ix1 q)) := by
  unfold Cert.Spec.lin Cert.Spec.preluN linEntry
  rw [select_apply, cmpf_apply, mulf_apply, addf_apply, zeroN_apply, rowN_apply, rowN_apply, dg_apply]

end Reference

/-! ## The body's result, read at an index of its block -/

section Kernel

open Cert.KernelIdeal Cert.KernelIdeal.Gen

-- the product's operand indices at output index `i` and contraction index `q`, axis by axis
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's product of a block of the features with the weights, into a zero accumulator, at row `p` and column `q`:
    the sum over the contracted axis. -/
theorem mm_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- A length-128 vector recast as one row and laid along the 2000 rows of a block reads, at row `p` and column `q`,
    its entry `q`. -/
theorem row_apply {α : Type} (v : S128.Idx → α) (p : Fin 2000) (q : Fin 128) :
    broadcastTo S2000x128 (shapeCast S1x128 v shapeCasts_S128_S1x128) broadcasts_S1x128_S2000x128 (ix2 p q) = v (ix1 q) := by
  refine (broadcastTo_apply _ broadcasts_S1x128_S2000x128 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · exact shapeCast_apply v shapeCasts_S128_S1x128 (ix2 (0 : Fin 1) q) (ix1 q)
      (by rw [Shape.rowMajor_val_two, Shape.rowMajor_val_one]; show q.val = 0 * 128 + q.val; omega)

/-- The body's result at row `p` and column `q` of its block: the entry of the input layer from row `p` of the
    features' block, column `q` of the weights, entry `q` of the bias and of the slope. -/
theorem pay_apply (x0 : Vec Ideal S2000x128 .f32) (W : Vec Ideal S128x128 .f32) (b a : Vec Ideal S128 .f32) (p : Fin 2000) (q : Fin 128) :
    k0_pay1 x0 W b a (ix2 p q) = linEntry (fun k => x0 (ix2 p k)) (fun k => W (ix2 k q)) (b (ix1 q)) (a (ix1 q)) := by
  unfold k0_pay1 linEntry
  rw [select_apply, cmpf_apply, mulf_apply, addf_apply, broadcast_apply, mm_apply, row_apply, row_apply]
  rfl

/-! ## From the blocks to the array -/

theorem hz2 : (![0, 0] : Fin 2 → Nat) = fun _ => 0 := funext fun a => match a with | ⟨0, _⟩ => rfl | ⟨1, _⟩ => rfl
theorem hz1 : (![0] : Fin 1 → Nat) = fun _ => 0 := funext fun a => match a with | ⟨0, _⟩ => rfl

/-- The block indices over the grid: the features' window and the output's sit at block row `t`, column 0; the
    weights, the bias and the slope are staged whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

/-- An entry of the body's result is the input layer's entry at the array row its block row stands for, when row
    `p` of the features' block is row `r` of the features, and the staged weights, bias and slope are the arrays'
    (on the column `q` the entry depends on). -/
theorem block_entry (x : Vec Ideal S100000x128 .f32) (W : Vec Ideal S128x128 .f32) (b a : Vec Ideal S128 .f32)
    (x0 : Vec Ideal S2000x128 .f32) (W0 : Vec Ideal S128x128 .f32) (b0 a0 : Vec Ideal S128 .f32)
    (p : Fin 2000) (q : Fin 128) (r : Fin 100000)
    (hx : ∀ k : Fin 128, x0 (ix2 p k) = x (ix2 r k)) (hW : ∀ k : Fin 128, W0 (ix2 k q) = W (ix2 k q))
    (hb : b0 (ix1 q) = b (ix1 q)) (ha : a0 (ix1 q) = a (ix1 q)) :
    k0_pay1 x0 W0 b0 a0 (ix2 p q) = Cert.Spec.lin (F := Ideal) x W b a (ix2 r q) := by
  rw [pay_apply, lin_apply, funext hx, funext hW, hb, ha]

-- the arrays' contents at the region's entry
variable (V : (c : Dev nD) → (b : Ref sig .tc) → Buf (Elt Ideal) ((c : Thread nD τ).loc b))

/-- What point `t` writes back is block `t` of the input layer of the argument arrays as the region found them. -/
theorem flushed_eq (c : Dev nD) (t : Fin cfg0.N) :
    (dat0 (F := Ideal) V c).flushed 4 t = ((cfg0.win 4).blk t).view.read (Elt Ideal)
      (Cert.Spec.lin (F := Ideal) (V c main_arg0) (V c main_arg4) (V c main_arg5) (V c main_arg6)) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x128) hz2, View.ld_unit_zero (S := S128) hz1]
  obtain ⟨e00, e01, e10, e11, e2, e3, e40, e41⟩ := idx_facts t
  have hN : t.val < 50 := (show t.val < grid0.N from t.isLt).trans_eq N_0
  funext j
  have h0 : (j 0).val < 2000 := (j 0).isLt
  have h1 : (j 1).val < 128 := (j 1).isLt
  have ej : (cfg0.win 4).xinj (grid0.coords t) j = ix2 ⟨(j 0).val, h0⟩ ⟨(j 1).val, h1⟩ :=
    funext fun a => match a with | ⟨0, _⟩ => rfl | ⟨1, _⟩ => rfl
  have e4 : ((cfg0.win 4).blk t).view.emb j = ix2 (⟨2000 * t.val + (j 0).val, by omega⟩ : Fin 100000) ⟨(j 1).val, h1⟩ := by
    funext a; apply Fin.ext
    match a with
    | ⟨0, _⟩ => show win0_4.index t (0 : Fin 2) * 2000 + 1 * (j 0).val = 2000 * t.val + (j 0).val; omega
    | ⟨1, _⟩ => show win0_4.index t (1 : Fin 2) * 128 + 1 * (j 1).val = (j 1).val; omega
  show k0_pay1 (iblk0 V c 0 t) (iblk0 V c 1 t) (iblk0 V c 2 t) (iblk0 V c 3 t) ((cfg0.win 4).xinj (grid0.coords t) j)
    = Cert.Spec.lin (F := Ideal) (V c main_arg0) (V c main_arg4) (V c main_arg5) (V c main_arg6) (((cfg0.win 4).blk t).view.emb j)
  rw [ej, e4]
  refine block_entry (V c main_arg0) (V c main_arg4) (V c main_arg5) (V c main_arg6)
    (iblk0 V c 0 t) (iblk0 V c 1 t) (iblk0 V c 2 t) (iblk0 V c 3 t) ⟨(j 0).val, h0⟩ ⟨(j 1).val, h1⟩ ⟨2000 * t.val + (j 0).val, by omega⟩
    (fun k => ?_) (fun k => ?_) ?_ ?_
  · show V c main_arg0 (((cfg0.win 0).blk t).view.emb (ix2 ⟨(j 0).val, h0⟩ k)) = V c main_arg0 (ix2 ⟨2000 * t.val + (j 0).val, by omega⟩ k)
    refine congrArg (V c main_arg0) (funext fun a => Fin.ext ?_)
    match a with
    | ⟨0, _⟩ => show win0_0.index t (0 : Fin 2) * 2000 + 1 * (j 0).val = 2000 * t.val + (j 0).val; omega
    | ⟨1, _⟩ => show win0_0.index t (1 : Fin 2) * 128 + 1 * k.val = k.val; omega
  · show V c main_arg4 (((cfg0.win 1).blk t).view.emb (ix2 k ⟨(j 1).val, h1⟩)) = V c main_arg4 (ix2 k ⟨(j 1).val, h1⟩)
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  · show V c main_arg5 (((cfg0.win 2).blk t).view.emb (ix1 ⟨(j 1).val, h1⟩)) = V c main_arg5 (ix1 ⟨(j 1).val, h1⟩)
    refine congrArg (V c main_arg5) (funext fun a => Fin.ext ?_)
    match a with
    | ⟨0, _⟩ => show win0_2.index t (0 : Fin 1) * 128 + 1 * (j 1).val = (j 1).val; omega
  · show V c main_arg6 (((cfg0.win 3).blk t).view.emb (ix1 ⟨(j 1).val, h1⟩)) = V c main_arg6 (ix1 ⟨(j 1).val, h1⟩)
    refine congrArg (V c main_arg6) (funext fun a => Fin.ext ?_)
    match a with
    | ⟨0, _⟩ => show win0_3.index t (0 : Fin 1) * 128 + 1 * (j 1).val = (j 1).val; omega

/-- An index of the array is in point `t`'s block iff each coordinate is in the block's range on its axis. -/
theorem mem_blk (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v4).slice (win0_4.rect t)).set ↔ _
  rw [View.set_slice_whole, Rect.mem_set_unit]
  exact Iff.rfl

/-- Every index of the array is in the block of the point its row falls to: row `r` is in block `r / 2000`. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, e40, e41⟩ := idx_facts t
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- After region 0 its output array is the input layer of its argument arrays as the region found them. -/
theorem value (c : Dev nD) :
    (dat0 (F := Ideal) V c).arrAt 4 cfg0.N
      = Cert.Spec.lin (F := Ideal) (V c main_arg0) (V c main_arg4) (V c main_arg5) (V c main_arg6) :=
  (dat0 (F := Ideal) V c).arrAt_eq_of_cover 4 _ (fun t _ => flushed_eq V c t) cover

end Kernel

end Cert.KVal.R0

end
-- ==== Proof.Region1.lean ====
/-
  Region 1, the dense half of a convolution: after the region its output array is `Cert.Spec.sage` of the arrays the
  region finds. One entry of the result (`entry`) is a function of one row of each of the two node arrays, one column of
  each of the two matrices, and one entry of the bias and of the slope: `y = (g_r · Wl_q + bl_q) + h_r · Wr_q`, then `y`
  where `y > 0`, `a_q · y` elsewhere. The stage function at `(r, q)` is that entry (a host contraction is a row against a
  column, the two vectors are laid along the rows). The body's result at `(p, q)` of a block is that entry of row `p` of
  its two row blocks (a block contraction into a zero accumulator is a row against a column; the format changes are the
  identity on extended reals). Row `p` of a row window's block at point `t` is row `2000 t + p` of its array; the matrices
  and the vectors are staged whole. So point `t` writes back block `t` of the stage function, and the 50 blocks cover
  the array.
-/
import proofs.«131736_j56994216017995_1_alg».proof.Proof.Gen.KernelIdeal.Frame
import proofs.«131736_j56994216017995_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KVal.R1

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## One entry of the dense half of the convolution -/

/-- The entry before the activation: a row `gr` of the aggregated array against a column `wl` of `Wl`, plus the bias
    `b`, plus the same row `hr` of the node array against the same column `wr` of `Wr`. -/
def pre (gr hr wl wr : Fin 128 → Ideal .f32) (b : Ideal .f32) : Ideal .f32 :=
  ((∑ k : Fin 128, gr k * wl k) + b) + ∑ k : Fin 128, hr k * wr k

/-- The entry: `y` where `y > 0`, `s · y` elsewhere, `y` the entry before the activation and `s` the column's slope. -/
def entry (gr hr wl wr : Fin 128 → Ideal .f32) (b s : Ideal .f32) : Ideal .f32 :=
  Scalar.select (FloatOps.cmpf .ogt (pre gr hr wl wr b) (FloatOps.ofBits .f32 0x00000000#32))
    (pre gr hr wl wr b) (s * pre gr hr wl wr b)

/-! ## The stage function's layout operations read at an index -/

/-- A length-128 vector laid along the rows reads, at `(r, q)`, the vector at `q`. -/
theorem rowN_apply (v : Vec Ideal S128 .f32) (r : Fin 100000) (q : Fin 128) :
    Cert.Spec.rowN (F := Ideal) v (ix2 r q) = v (ix1 q) := by
  unfold Cert.Spec.rowN
  refine (broadcastInDim_apply _ _ _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ _ v (ix2 (0 : Fin 1) q) (ix1 q) (fun a => match a with
    | ⟨0, _⟩ => by show q.val = if (128 : Nat) = 1 then 0 else q.val; rw [if_neg (by decide)])

/-- The all-zero array reads the zero word's value everywhere. -/
theorem zeroN_apply (i : Cert.ReferenceIdeal.S100000x128.Idx) :
    Cert.Spec.zeroN (F := Ideal) i = FloatOps.ofBits (F := Ideal) .f32 0x00000000#32 := by
  unfold Cert.Spec.zeroN
  exact broadcastInDim_apply _ _ _ i ix0 (fun a => a.elim0)

/-! ## The two contractions read at an index: a row of the left operand against a column of the right -/

-- the host contraction's operand indices, axis by axis

theorem hlhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem hlhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem hrhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem hrhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host contraction at `(r, q)` is row `r` of the left operand against column `q` of the right. -/
theorem dotN_apply (x : FVec Ideal Cert.ReferenceIdeal.S100000x128 .f32) (W : FVec Ideal Cert.ReferenceIdeal.S128x128 .f32) (r : Fin 100000) (q : Fin 128) :
    Host.dotGeneral (F := Ideal) Cert.ReferenceIdeal.dot_S100000x128_S128x128_S100000x128_1_0_0_1_n_n none x W (ix2 r q) = ∑ k : Fin 128, x (ix2 r k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact hlhs_0 _ _
    | ⟨1, _⟩ => exact (hlhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (hrhs_0 _ _).trans hk
    | ⟨1, _⟩ => exact hrhs_1 _ _)
  rw [el, er]

-- the block contraction's operand indices, axis by axis

theorem klhs_0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
theorem klhs_1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem krhs_0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem krhs_1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- The block contraction into a zero accumulator at `(p, q)` is row `p` of the left block against column `q` of the
    right operand: the format changes are the identity on extended reals, the cast to the same shape is the identity. -/
theorem mm_apply (x : FVec Ideal S2000x128 .f32) (W : FVec Ideal S128x128 .f32) (hsc : S2000x128.ShapeCasts S2000x128)
    (hlt : FTy.bits .bf16 < FTy.bits .f32) (p : Fin 2000) (q : Fin 128) :
    matmul (F := Ideal) Cert.KernelIdeal.dot_S2000x128_S128x128_S2000x128_1_0_0_1_n_n none (truncf .bf16 (shapeCast S2000x128 x hsc) hlt) (truncf .bf16 W hlt)
      (constant S2000x128 .f32 0x00000000#32) (ix2 p q) = ∑ k : Fin 128, x (ix2 p k) * W (ix2 k q) := by
  rw [shapeCast_self]
  refine (Ideal.matmul_constant_zero_apply Cert.KernelIdeal.dot_S2000x128_S128x128_S2000x128_1_0_0_1_n_n none _ _ (ix2 p q)).trans ?_
  rw [← Equiv.sum_comp (contrEquiv1 Cert.KernelIdeal.dot_S2000x128_S128x128_S2000x128_1_0_0_1_n_n 128 rfl rfl).symm]
  refine Finset.sum_congr rfl fun k _ => ?_
  have hk := contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p q) ((contrEquiv1 Cert.KernelIdeal.dot_S2000x128_S128x128_S2000x128_1_0_0_1_n_n 128 rfl rfl).symm k) = ix2 p k := funext fun a => Fin.ext (by
    match a with
    | ⟨0, _⟩ => exact klhs_0 _ _
    | ⟨1, _⟩ => exact (klhs_1 _ _).trans hk)
  have er : Cert.KernelIdeal.dot_S2000x128_S128x128_S2000x128_1_0_0_1_n_n.rhsIdx (ix2 p q) ((contrEquiv1 Cert.KernelIdeal.dot_S2000x128_S128x128_S2000x128_1_0_0_1_n_n 128 rfl rfl).symm k) = ix2 k q := funext fun a => Fin.ext (by
    match a with
    | ⟨0, _⟩ => exact (krhs_0 _ _).trans hk
    | ⟨1, _⟩ => exact krhs_1 _ _)
  show x (Cert.KernelIdeal.dot_S2000x128_S128x128_S2000x128_1_0_0_1_n_n.lhsIdx (ix2 p q) ((contrEquiv1 Cert.KernelIdeal.dot_S2000x128_S128x128_S2000x128_1_0_0_1_n_n 128 rfl rfl).symm k)) * W (Cert.KernelIdeal.dot_S2000x128_S128x128_S2000x128_1_0_0_1_n_n.rhsIdx (ix2 p q) ((contrEquiv1 Cert.KernelIdeal.dot_S2000x128_S128x128_S2000x128_1_0_0_1_n_n 128 rfl rfl).symm k)) = _
  rw [el, er]

/-! ## The body's result at an index, and the stage function at an index -/

/-- A length-128 vector cast to one row and laid along the 2000 rows of a block reads, at `(p, q)`, the vector at `q`. -/
theorem bc_apply (v : FVec Ideal S128 .f32) (hsc : S128.ShapeCasts S1x128) (hb : S1x128.Broadcasts S2000x128) (p : Fin 2000) (q : Fin 128) :
    broadcastTo S2000x128 (shapeCast S1x128 v hsc) hb (ix2 p q) = v (ix1 q) :=
  (broadcastTo_1b_ab_apply _ hb p q).trans (shapeCast_a_1a_apply v hsc 0 q)

/-- The body's result at `(p, q)` is the entry of row `p` of its two row blocks and column `q` of its two matrices and
    two vectors: the two block contractions are rows against columns, the two vectors are laid along the rows, the
    rest is pointwise. -/
theorem pay_apply (g0 h0 : FVec Ideal S2000x128 .f32) (Wl Wr : FVec Ideal S128x128 .f32) (bl a : FVec Ideal S128 .f32)
    (p : Fin 2000) (q : Fin 128) :
    k1_pay1 (F := Ideal) g0 Wl h0 Wr bl a (ix2 p q)
      = entry (fun k => g0 (ix2 p k)) (fun k => h0 (ix2 p k)) (fun k => Wl (ix2 k q)) (fun k => Wr (ix2 k q)) (bl (ix1 q)) (a (ix1 q)) := by
  have e1 := mm_apply g0 Wl shapeCasts_S2000x128_S2000x128 bitsLt_bf16_f32 p q
  have e2 := mm_apply h0 Wr shapeCasts_S2000x128_S2000x128 bitsLt_bf16_f32 p q
  have e3 := bc_apply bl shapeCasts_S128_S1x128 broadcasts_S1x128_S2000x128 p q
  have e4 := bc_apply a shapeCasts_S128_S1x128 broadcasts_S1x128_S2000x128 p q
  unfold k1_pay1 entry pre
  dsimp only [select, cmpf, mulf, addf, broadcast]
  rw [e1, e2, e3, e4]
  rfl

/-- The stage function at `(r, q)` is the entry of row `r` of its two arrays and column `q` of its two matrices and two
    vectors: the two host contractions are rows against columns, the two vectors are laid along the rows, the rest is
    pointwise. -/
theorem sage_apply (g h : FVec Ideal Cert.ReferenceIdeal.S100000x128 .f32) (Wl Wr : FVec Ideal Cert.ReferenceIdeal.S128x128 .f32)
    (bl a : FVec Ideal Cert.ReferenceIdeal.S128 .f32) (r : Fin 100000) (q : Fin 128) :
    Cert.Spec.sage (F := Ideal) g h Wl bl Wr a (ix2 r q)
      = entry (fun k => g (ix2 r k)) (fun k => h (ix2 r k)) (fun k => Wl (ix2 k q)) (fun k => Wr (ix2 k q)) (bl (ix1 q)) (a (ix1 q)) := by
  have e1 := dotN_apply g Wl r q
  have e2 := dotN_apply h Wr r q
  have e3 := rowN_apply bl r q
  have e4 := rowN_apply a r q
  have e5 := zeroN_apply (ix2 r q)
  unfold Cert.Spec.sage Cert.Spec.preluN entry pre
  dsimp only [select, cmpf, mulf, addf]
  rw [e1, e2, e3, e4, e5]
  rfl

/-! ## From the blocks to the array -/

/-- The zero offsets of a whole rank-2 block, as a constant function. -/
theorem hz2 : (![0, 0] : Fin 2 → Nat) = fun _ => 0 := funext fun a => by fin_cases a <;> rfl
/-- The zero offset of a whole rank-1 block, as a constant function. -/
theorem hz1 : (![0] : Fin 1 → Nat) = fun _ => 0 := funext fun a => by fin_cases a; rfl

/-- What the body leaves in the output's staging buffer at `(p, q)`: the entry of row `p` of the two row blocks. -/
theorem out_apply (x0 x1 : FVec Ideal S2000x128 .f32) (x2 : FVec Ideal S128x128 .f32) (x3 : FVec Ideal S128 .f32)
    (x4 : FVec Ideal S128x128 .f32) (x5 : FVec Ideal S128 .f32) (p : Fin 2000) (q : Fin 128) :
    out1_6 (F := Ideal) x0 x1 x2 x3 x4 x5 (ix2 p q)
      = entry (fun k => x0 (ix2 p k)) (fun k => x1 (ix2 p k)) (fun k => x2 (ix2 k q)) (fun k => x4 (ix2 k q)) (x3 (ix1 q)) (x5 (ix1 q)) := by
  unfold out1_6
  rw [View.canon_unit_zero hz2]
  simp only [View.ld_unit_zero (S := S2000x128) hz2, View.ld_unit_zero (S := S128x128) hz2, View.ld_unit_zero (S := S128) hz1]
  exact pay_apply x0 x1 x2 x4 x3 x5 p q

/-- The windows' block indices over the grid: the two row windows and the output are at block `t` of the row axis, the
    two matrices and the two vectors are staged whole. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = t.val ∧ win1_6.index t (1 : Fin 2) = 0) :=
  (by decide +kernel : ∀ t : Fin grid1.N, _)

/-! ## The input windows' blocks as parts of the arrays the region finds -/

/-- Row `p` of the aggregated array's block at point `t` is row `2000 t + p` of the array. -/
theorem iblk_g (c : Dev nD) (t : Fin cfg1.N) (p : Fin 2000) (k : Fin 128) (r : Fin 100000) (hr : r.val = 2000 * t.val + p.val) :
    (iblk1 (F := Ideal) V c 0 t : FVec Ideal S2000x128 .f32) (ix2 p k) = (V c main_v14 : FVec Ideal S100000x128 .f32) (ix2 r k) := by
  obtain ⟨e0, e1⟩ := (idx_facts t).1
  unfold iblk1
  rw [View.read_apply]
  show V c main_v14 _ = V c main_v14 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row `p` of the node array's block at point `t` is row `2000 t + p` of the array. -/
theorem iblk_h (c : Dev nD) (t : Fin cfg1.N) (p : Fin 2000) (k : Fin 128) (r : Fin 100000) (hr : r.val = 2000 * t.val + p.val) :
    (iblk1 (F := Ideal) V c 1 t : FVec Ideal S2000x128 .f32) (ix2 p k) = (V c main_v4 : FVec Ideal S100000x128 .f32) (ix2 r k) := by
  obtain ⟨e0, e1⟩ := (idx_facts t).2.1
  unfold iblk1
  rw [View.read_apply]
  show V c main_v4 _ = V c main_v4 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The left matrix is staged whole: its block at any point is the array. -/
theorem iblk_Wl (c : Dev nD) (t : Fin cfg1.N) (k q : Fin 128) :
    (iblk1 (F := Ideal) V c 2 t : FVec Ideal S128x128 .f32) (ix2 k q) = (V c main_arg7 : FVec Ideal S128x128 .f32) (ix2 k q) := by
  obtain ⟨e0, e1⟩ := (idx_facts t).2.2.1
  unfold iblk1
  rw [View.read_apply]
  show V c main_arg7 _ = V c main_arg7 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias is staged whole: its block at any point is the array. -/
theorem iblk_bl (c : Dev nD) (t : Fin cfg1.N) (q : Fin 128) :
    (iblk1 (F := Ideal) V c 3 t : FVec Ideal S128 .f32) (ix1 q) = (V c main_arg8 : FVec Ideal S128 .f32) (ix1 q) := by
  have e0 := (idx_facts t).2.2.2.1
  unfold iblk1
  rw [View.read_apply]
  show V c main_arg8 _ = V c main_arg8 _
  congr 1
  funext a
  apply Fin.ext
  match a with
  | ⟨0, _⟩ => show win1_3.index t (0 : Fin 1) * 128 + 1 * q.val = q.val; rw [e0]; omega

/-- The right matrix is staged whole: its block at any point is the array. -/
theorem iblk_Wr (c : Dev nD) (t : Fin cfg1.N) (k q : Fin 128) :
    (iblk1 (F := Ideal) V c 4 t : FVec Ideal S128x128 .f32) (ix2 k q) = (V c main_arg9 : FVec Ideal S128x128 .f32) (ix2 k q) := by
  obtain ⟨e0, e1⟩ := (idx_facts t).2.2.2.2.1
  unfold iblk1
  rw [View.read_apply]
  show V c main_arg9 _ = V c main_arg9 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The slope is staged whole: its block at any point is the array. -/
theorem iblk_a (c : Dev nD) (t : Fin cfg1.N) (q : Fin 128) :
    (iblk1 (F := Ideal) V c 5 t : FVec Ideal S128 .f32) (ix1 q) = (V c main_arg10 : FVec Ideal S128 .f32) (ix1 q) := by
  have e0 := (idx_facts t).2.2.2.2.2.1
  unfold iblk1
  rw [View.read_apply]
  show V c main_arg10 _ = V c main_arg10 _
  congr 1
  funext a
  apply Fin.ext
  match a with
  | ⟨0, _⟩ => show win1_5.index t (0 : Fin 1) * 128 + 1 * q.val = q.val; rw [e0]; omega

/-! ## What each point writes back, the cover, and the array after the region -/

/-- The entry depends on its rows, columns and two scalars entry by entry. -/
theorem entry_congr {gr gr' hr hr' wl wl' wr wr' : Fin 128 → Ideal .f32} {b b' s s' : Ideal .f32}
    (h1 : ∀ k, gr k = gr' k) (h2 : ∀ k, hr k = hr' k) (h3 : ∀ k, wl k = wl' k) (h4 : ∀ k, wr k = wr' k) (h5 : b = b') (h6 : s = s') :
    entry gr hr wl wr b s = entry gr' hr' wl' wr' b' s' := by
  obtain rfl := funext h1; obtain rfl := funext h2; obtain rfl := funext h3; obtain rfl := funext h4; subst h5; subst h6; rfl

/-- What point `t` writes back is block `t` of the stage function of the arrays the region finds: row `p` of the
    block is row `2000 t + p` of the array, and that row of the result depends on that row of the two node arrays only. -/
theorem flushed_eq (c : Dev nD) (t : Fin cfg1.N) :
    (dat1 (F := Ideal) V c).flushed 6 t = ((cfg1.win 6).blk t).view.read (Elt Ideal) (Cert.Spec.sage (F := Ideal) (V c main_v14) (V c main_v4) (V c main_arg7) (V c main_arg8) (V c main_arg9) (V c main_arg10)) := by
  show (cfg1.win 6).cut (grid1.coords t) ((dat1 V c).after 6 t) = _
  rw [after1_6]
  funext j
  obtain ⟨p, q, rfl⟩ : ∃ (p : Fin 2000) (q : Fin 128), j = ix2 p q := ⟨j 0, j 1, eq_ix2 j⟩
  rw [View.read_apply]
  have ht : t.val < 50 := (N_1 ▸ t.isLt : t.val < 50)
  have hp : p.val < 2000 := p.isLt
  obtain ⟨e0, e1⟩ := (idx_facts t).2.2.2.2.2.2
  have hi : ((cfg1.win 6).blk t).view.emb (ix2 p q) = ix2 (⟨2000 * t.val + p.val, by omega⟩ : Fin 100000) q :=
    funext fun a => Fin.ext (by
      match a with
      | ⟨0, _⟩ => show win1_6.index t (0 : Fin 2) * 2000 + 1 * p.val = 2000 * t.val + p.val; rw [e0]; omega
      | ⟨1, _⟩ => show win1_6.index t (1 : Fin 2) * 128 + 1 * q.val = q.val; rw [e1]; omega)
  rw [hi]
  refine (out_apply (iblk1 V c 0 t) (iblk1 V c 1 t) (iblk1 V c 2 t) (iblk1 V c 3 t) (iblk1 V c 4 t) (iblk1 V c 5 t) p q).trans ?_
  refine Eq.trans ?_ (sage_apply (V c main_v14) (V c main_v4) (V c main_arg7) (V c main_arg9) (V c main_arg8) (V c main_arg10) ⟨2000 * t.val + p.val, by omega⟩ q).symm
  exact entry_congr (fun k => iblk_g V c t p k _ rfl) (fun k => iblk_h V c t p k _ rfl) (fun k => iblk_Wl V c t k q)
    (fun k => iblk_Wr V c t k q) (iblk_bl V c t q) (iblk_a V c t q)

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v15).slice (win1_6.rect t)).set ↔ _
  rw [View.set_slice_whole, Rect.mem_set_unit]
  exact Iff.rfl

/-- Every row of the array is in some point's block: row `r` in block `r / 2000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 2000 < cfg1.N := by show _ < grid1.N; rw [N_1]; omega
  refine ⟨⟨(i 0).val / 2000, ht⟩, flush1_6 _, ?_⟩
  rw [mem_blk]
  obtain ⟨e0, e1⟩ := (idx_facts ⟨(i 0).val / 2000, ht⟩).2.2.2.2.2.2
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e1]; omega

/-- After region 1 its output array is the dense half of the convolution of the arrays the region found. -/
theorem value (c : Dev nD) :
    (dat1 (F := Ideal) V c).arrAt 6 cfg1.N
      = Cert.Spec.sage (F := Ideal) (V c main_v14) (V c main_v4) (V c main_arg7) (V c main_arg8) (V c main_arg9) (V c main_arg10) :=
  (dat1 (F := Ideal) V c).arrAt_eq_of_cover 6 (Cert.Spec.sage (F := Ideal) (V c main_v14) (V c main_v4) (V c main_arg7) (V c main_arg8) (V c main_arg9) (V c main_arg10)) (fun t _ => flushed_eq V c t) cover

end Cert.KVal.R1

end
-- ==== Proof.Region2.lean ====
/-
  Region 2, the dense half of a convolution: after the region its output array is `Cert.Spec.sage` of the arrays the
  region finds. One entry of the result (`entry`) is a function of one row of each of the two node arrays, one column of
  each of the two matrices, and one entry of the bias and of the slope: `y = (g_r · Wl_q + bl_q) + h_r · Wr_q`, then `y`
  where `y > 0`, `a_q · y` elsewhere. The stage function at `(r, q)` is that entry (a host contraction is a row against a
  column, the two vectors are laid along the rows). The body's result at `(p, q)` of a block is that entry of row `p` of
  its two row blocks (a block contraction into a zero accumulator is a row against a column; the format changes are the
  identity on extended reals). Row `p` of a row window's block at point `t` is row `2000 t + p` of its array; the matrices
  and the vectors are staged whole. So point `t` writes back block `t` of the stage function, and the 50 blocks cover
  the array.
-/
import proofs.«131736_j56994216017995_1_alg».proof.Proof.Gen.KernelIdeal.Frame
import proofs.«131736_j56994216017995_1_alg».proof.Proof.Stages
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KVal.R2

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## One entry of the dense half of the convolution -/

/-- The entry before the activation: a row `gr` of the aggregated array against a column `wl` of `Wl`, plus the bias
    `b`, plus the same row `hr` of the node array against the same column `wr` of `Wr`. -/
def pre (gr hr wl wr : Fin 128 → Ideal .f32) (b : Ideal .f32) : Ideal .f32 :=
  ((∑ k : Fin 128, gr k * wl k) + b) + ∑ k : Fin 128, hr k * wr k

/-- The entry: `y` where `y > 0`, `s · y` elsewhere, `y` the entry before the activation and `s` the column's slope. -/
def entry (gr hr wl wr : Fin 128 → Ideal .f32) (b s : Ideal .f32) : Ideal .f32 :=
  Scalar.select (FloatOps.cmpf .ogt (pre gr hr wl wr b) (FloatOps.ofBits .f32 0x00000000#32))
    (pre gr hr wl wr b) (s * pre gr hr wl wr b)

/-! ## The stage function's layout operations read at an index -/

/-- A length-128 vector laid along the rows reads, at `(r, q)`, the vector at `q`. -/
theorem rowN_apply (v : Vec Ideal S128 .f32) (r : Fin 100000) (q : Fin 128) :
    Cert.Spec.rowN (F := Ideal) v (ix2 r q) = v (ix1 q) := by
  unfold Cert.Spec.rowN
  refine (broadcastInDim_apply _ _ _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ _ v (ix2 (0 : Fin 1) q) (ix1 q) (fun a => match a with
    | ⟨0, _⟩ => by show q.val = if (128 : Nat) = 1 then 0 else q.val; rw [if_neg (by decide)])

/-- The all-zero array reads the zero word's value everywhere. -/
theorem zeroN_apply (i : Cert.ReferenceIdeal.S100000x128.Idx) :
    Cert.Spec.zeroN (F := Ideal) i = FloatOps.ofBits (F := Ideal) .f32 0x00000000#32 := by
  unfold Cert.Spec.zeroN
  exact broadcastInDim_apply _ _ _ i ix0 (fun a => a.elim0)

/-! ## The two contractions read at an index: a row of the left operand against a column of the right -/

-- the host contraction's operand indices, axis by axis

theorem hlhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem hlhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem hrhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem hrhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host contraction at `(r, q)` is row `r` of the left operand against column `q` of the right. -/
theorem dotN_apply (x : FVec Ideal Cert.ReferenceIdeal.S100000x128 .f32) (W : FVec Ideal Cert.ReferenceIdeal.S128x128 .f32) (r : Fin 100000) (q : Fin 128) :
    Host.dotGeneral (F := Ideal) Cert.ReferenceIdeal.dot_S100000x128_S128x128_S100000x128_1_0_0_1_n_n none x W (ix2 r q) = ∑ k : Fin 128, x (ix2 r k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact hlhs_0 _ _
    | ⟨1, _⟩ => exact (hlhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (hrhs_0 _ _).trans hk
    | ⟨1, _⟩ => exact hrhs_1 _ _)
  rw [el, er]

-- the block contraction's operand indices, axis by axis

theorem klhs_0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
theorem klhs_1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem krhs_0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem krhs_1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- The block contraction into a zero accumulator at `(p, q)` is row `p` of the left block against column `q` of the
    right operand: the format changes are the identity on extended reals, the cast to the same shape is the identity. -/
theorem mm_apply (x : FVec Ideal S2000x128 .f32) (W : FVec Ideal S128x128 .f32) (hsc : S2000x128.ShapeCasts S2000x128)
    (hlt : FTy.bits .bf16 < FTy.bits .f32) (p : Fin 2000) (q : Fin 128) :
    matmul (F := Ideal) Cert.KernelIdeal.dot_S2000x128_S128x128_S2000x128_1_0_0_1_n_n none (truncf .bf16 (shapeCast S2000x128 x hsc) hlt) (truncf .bf16 W hlt)
      (constant S2000x128 .f32 0x00000000#32) (ix2 p q) = ∑ k : Fin 128, x (ix2 p k) * W (ix2 k q) := by
  rw [shapeCast_self]
  refine (Ideal.matmul_constant_zero_apply Cert.KernelIdeal.dot_S2000x128_S128x128_S2000x128_1_0_0_1_n_n none _ _ (ix2 p q)).trans ?_
  rw [← Equiv.sum_comp (contrEquiv1 Cert.KernelIdeal.dot_S2000x128_S128x128_S2000x128_1_0_0_1_n_n 128 rfl rfl).symm]
  refine Finset.sum_congr rfl fun k _ => ?_
  have hk := contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p q) ((contrEquiv1 Cert.KernelIdeal.dot_S2000x128_S128x128_S2000x128_1_0_0_1_n_n 128 rfl rfl).symm k) = ix2 p k := funext fun a => Fin.ext (by
    match a with
    | ⟨0, _⟩ => exact klhs_0 _ _
    | ⟨1, _⟩ => exact (klhs_1 _ _).trans hk)
  have er : Cert.KernelIdeal.dot_S2000x128_S128x128_S2000x128_1_0_0_1_n_n.rhsIdx (ix2 p q) ((contrEquiv1 Cert.KernelIdeal.dot_S2000x128_S128x128_S2000x128_1_0_0_1_n_n 128 rfl rfl).symm k) = ix2 k q := funext fun a => Fin.ext (by
    match a with
    | ⟨0, _⟩ => exact (krhs_0 _ _).trans hk
    | ⟨1, _⟩ => exact krhs_1 _ _)
  show x (Cert.KernelIdeal.dot_S2000x128_S128x128_S2000x128_1_0_0_1_n_n.lhsIdx (ix2 p q) ((contrEquiv1 Cert.KernelIdeal.dot_S2000x128_S128x128_S2000x128_1_0_0_1_n_n 128 rfl rfl).symm k)) * W (Cert.KernelIdeal.dot_S2000x128_S128x128_S2000x128_1_0_0_1_n_n.rhsIdx (ix2 p q) ((contrEquiv1 Cert.KernelIdeal.dot_S2000x128_S128x128_S2000x128_1_0_0_1_n_n 128 rfl rfl).symm k)) = _
  rw [el, er]

/-! ## The body's result at an index, and the stage function at an index -/

/-- A length-128 vector cast to one row and laid along the 2000 rows of a block reads, at `(p, q)`, the vector at `q`. -/
theorem bc_apply (v : FVec Ideal S128 .f32) (hsc : S128.ShapeCasts S1x128) (hb : S1x128.Broadcasts S2000x128) (p : Fin 2000) (q : Fin 128) :
    broadcastTo S2000x128 (shapeCast S1x128 v hsc) hb (ix2 p q) = v (ix1 q) :=
  (broadcastTo_1b_ab_apply _ hb p q).trans (shapeCast_a_1a_apply v hsc 0 q)

/-- The body's result at `(p, q)` is the entry of row `p` of its two row blocks and column `q` of its two matrices and
    two vectors: the two block contractions are rows against columns, the two vectors are laid along the rows, the
    rest is pointwise. -/
theorem pay_apply (g0 h0 : FVec Ideal S2000x128 .f32) (Wl Wr : FVec Ideal S128x128 .f32) (bl a : FVec Ideal S128 .f32)
    (p : Fin 2000) (q : Fin 128) :
    k2_pay1 (F := Ideal) g0 Wl h0 Wr bl a (ix2 p q)
      = entry (fun k => g0 (ix2 p k)) (fun k => h0 (ix2 p k)) (fun k => Wl (ix2 k q)) (fun k => Wr (ix2 k q)) (bl (ix1 q)) (a (ix1 q)) := by
  have e1 := mm_apply g0 Wl shapeCasts_S2000x128_S2000x128 bitsLt_bf16_f32 p q
  have e2 := mm_apply h0 Wr shapeCasts_S2000x128_S2000x128 bitsLt_bf16_f32 p q
  have e3 := bc_apply bl shapeCasts_S128_S1x128 broadcasts_S1x128_S2000x128 p q
  have e4 := bc_apply a shapeCasts_S128_S1x128 broadcasts_S1x128_S2000x128 p q
  unfold k2_pay1 entry pre
  dsimp only [select, cmpf, mulf, addf, broadcast]
  rw [e1, e2, e3, e4]
  rfl

/-- The stage function at `(r, q)` is the entry of row `r` of its two arrays and column `q` of its two matrices and two
    vectors: the two host contractions are rows against columns, the two vectors are laid along the rows, the rest is
    pointwise. -/
theorem sage_apply (g h : FVec Ideal Cert.ReferenceIdeal.S100000x128 .f32) (Wl Wr : FVec Ideal Cert.ReferenceIdeal.S128x128 .f32)
    (bl a : FVec Ideal Cert.ReferenceIdeal.S128 .f32) (r : Fin 100000) (q : Fin 128) :
    Cert.Spec.sage (F := Ideal) g h Wl bl Wr a (ix2 r q)
      = entry (fun k => g (ix2 r k)) (fun k => h (ix2 r k)) (fun k => Wl (ix2 k q)) (fun k => Wr (ix2 k q)) (bl (ix1 q)) (a (ix1 q)) := by
  have e1 := dotN_apply g Wl r q
  have e2 := dotN_apply h Wr r q
  have e3 := rowN_apply bl r q
  have e4 := rowN_apply a r q
  have e5 := zeroN_apply (ix2 r q)
  unfold Cert.Spec.sage Cert.Spec.preluN entry pre
  dsimp only [select, cmpf, mulf, addf]
  rw [e1, e2, e3, e4, e5]
  rfl

/-! ## From the blocks to the array -/

/-- The zero offsets of a whole rank-2 block, as a constant function. -/
theorem hz2 : (![0, 0] : Fin 2 → Nat) = fun _ => 0 := funext fun a => by fin_cases a <;> rfl
/-- The zero offset of a whole rank-1 block, as a constant function. -/
theorem hz1 : (![0] : Fin 1 → Nat) = fun _ => 0 := funext fun a => by fin_cases a; rfl

/-- What the body leaves in the output's staging buffer at `(p, q)`: the entry of row `p` of the two row blocks. -/
theorem out_apply (x0 x1 : FVec Ideal S2000x128 .f32) (x2 : FVec Ideal S128x128 .f32) (x3 : FVec Ideal S128 .f32)
    (x4 : FVec Ideal S128x128 .f32) (x5 : FVec Ideal S128 .f32) (p : Fin 2000) (q : Fin 128) :
    out2_6 (F := Ideal) x0 x1 x2 x3 x4 x5 (ix2 p q)
      = entry (fun k => x0 (ix2 p k)) (fun k => x1 (ix2 p k)) (fun k => x2 (ix2 k q)) (fun k => x4 (ix2 k q)) (x3 (ix1 q)) (x5 (ix1 q)) := by
  unfold out2_6
  rw [View.canon_unit_zero hz2]
  simp only [View.ld_unit_zero (S := S2000x128) hz2, View.ld_unit_zero (S := S128x128) hz2, View.ld_unit_zero (S := S128) hz1]
  exact pay_apply x0 x1 x2 x4 x3 x5 p q

/-- The windows' block indices over the grid: the two row windows and the output are at block `t` of the row axis, the
    two matrices and the two vectors are staged whole. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ win2_3.index t (0 : Fin 1) = 0
    ∧ (win2_4.index t (0 : Fin 2) = 0 ∧ win2_4.index t (1 : Fin 2) = 0)
    ∧ win2_5.index t (0 : Fin 1) = 0
    ∧ (win2_6.index t (0 : Fin 2) = t.val ∧ win2_6.index t (1 : Fin 2) = 0) :=
  (by decide +kernel : ∀ t : Fin grid2.N, _)

/-! ## The input windows' blocks as parts of the arrays the region finds -/

/-- Row `p` of the aggregated array's block at point `t` is row `2000 t + p` of the array. -/
theorem iblk_g (c : Dev nD) (t : Fin cfg2.N) (p : Fin 2000) (k : Fin 128) (r : Fin 100000) (hr : r.val = 2000 * t.val + p.val) :
    (iblk2 (F := Ideal) V c 0 t : FVec Ideal S2000x128 .f32) (ix2 p k) = (V c main_v25 : FVec Ideal S100000x128 .f32) (ix2 r k) := by
  obtain ⟨e0, e1⟩ := (idx_facts t).1
  unfold iblk2
  rw [View.read_apply]
  show V c main_v25 _ = V c main_v25 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- Row `p` of the node array's block at point `t` is row `2000 t + p` of the array. -/
theorem iblk_h (c : Dev nD) (t : Fin cfg2.N) (p : Fin 2000) (k : Fin 128) (r : Fin 100000) (hr : r.val = 2000 * t.val + p.val) :
    (iblk2 (F := Ideal) V c 1 t : FVec Ideal S2000x128 .f32) (ix2 p k) = (V c main_v15 : FVec Ideal S100000x128 .f32) (ix2 r k) := by
  obtain ⟨e0, e1⟩ := (idx_facts t).2.1
  unfold iblk2
  rw [View.read_apply]
  show V c main_v15 _ = V c main_v15 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * k.val = k.val; rw [e1]; omega

/-- The left matrix is staged whole: its block at any point is the array. -/
theorem iblk_Wl (c : Dev nD) (t : Fin cfg2.N) (k q : Fin 128) :
    (iblk2 (F := Ideal) V c 2 t : FVec Ideal S128x128 .f32) (ix2 k q) = (V c main_arg11 : FVec Ideal S128x128 .f32) (ix2 k q) := by
  obtain ⟨e0, e1⟩ := (idx_facts t).2.2.1
  unfold iblk2
  rw [View.read_apply]
  show V c main_arg11 _ = V c main_arg11 _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The bias is staged whole: its block at any point is the array. -/
theorem iblk_bl (c : Dev nD) (t : Fin cfg2.N) (q : Fin 128) :
    (iblk2 (F := Ideal) V c 3 t : FVec Ideal S128 .f32) (ix1 q) = (V c main_arg12 : FVec Ideal S128 .f32) (ix1 q) := by
  have e0 := (idx_facts t).2.2.2.1
  unfold iblk2
  rw [View.read_apply]
  show V c main_arg12 _ = V c main_arg12 _
  congr 1
  funext a
  apply Fin.ext
  match a with
  | ⟨0, _⟩ => show win2_3.index t (0 : Fin 1) * 128 + 1 * q.val = q.val; rw [e0]; omega

/-- The right matrix is staged whole: its block at any point is the array. -/
theorem iblk_Wr (c : Dev nD) (t : Fin cfg2.N) (k q : Fin 128) :
    (iblk2 (F := Ideal) V c 4 t : FVec Ideal S128x128 .f32) (ix2 k q) = (V c main_arg13 : FVec Ideal S128x128 .f32) (ix2 k q) := by
  obtain ⟨e0, e1⟩ := (idx_facts t).2.2.2.2.1
  unfold iblk2
  rw [View.read_apply]
  show V c main_arg13 _ = V c main_arg13 _
  congr 1
  funext a
  apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- The slope is staged whole: its block at any point is the array. -/
theorem iblk_a (c : Dev nD) (t : Fin cfg2.N) (q : Fin 128) :
    (iblk2 (F := Ideal) V c 5 t : FVec Ideal S128 .f32) (ix1 q) = (V c main_arg14 : FVec Ideal S128 .f32) (ix1 q) := by
  have e0 := (idx_facts t).2.2.2.2.2.1
  unfold iblk2
  rw [View.read_apply]
  show V c main_arg14 _ = V c main_arg14 _
  congr 1
  funext a
  apply Fin.ext
  match a with
  | ⟨0, _⟩ => show win2_5.index t (0 : Fin 1) * 128 + 1 * q.val = q.val; rw [e0]; omega

/-! ## What each point writes back, the cover, and the array after the region -/

/-- The entry depends on its rows, columns and two scalars entry by entry. -/
theorem entry_congr {gr gr' hr hr' wl wl' wr wr' : Fin 128 → Ideal .f32} {b b' s s' : Ideal .f32}
    (h1 : ∀ k, gr k = gr' k) (h2 : ∀ k, hr k = hr' k) (h3 : ∀ k, wl k = wl' k) (h4 : ∀ k, wr k = wr' k) (h5 : b = b') (h6 : s = s') :
    entry gr hr wl wr b s = entry gr' hr' wl' wr' b' s' := by
  obtain rfl := funext h1; obtain rfl := funext h2; obtain rfl := funext h3; obtain rfl := funext h4; subst h5; subst h6; rfl

/-- What point `t` writes back is block `t` of the stage function of the arrays the region finds: row `p` of the
    block is row `2000 t + p` of the array, and that row of the result depends on that row of the two node arrays only. -/
theorem flushed_eq (c : Dev nD) (t : Fin cfg2.N) :
    (dat2 (F := Ideal) V c).flushed 6 t = ((cfg2.win 6).blk t).view.read (Elt Ideal) (Cert.Spec.sage (F := Ideal) (V c main_v25) (V c main_v15) (V c main_arg11) (V c main_arg12) (V c main_arg13) (V c main_arg14)) := by
  show (cfg2.win 6).cut (grid2.coords t) ((dat2 V c).after 6 t) = _
  rw [after2_6]
  funext j
  obtain ⟨p, q, rfl⟩ : ∃ (p : Fin 2000) (q : Fin 128), j = ix2 p q := ⟨j 0, j 1, eq_ix2 j⟩
  rw [View.read_apply]
  have ht : t.val < 50 := (N_2 ▸ t.isLt : t.val < 50)
  have hp : p.val < 2000 := p.isLt
  obtain ⟨e0, e1⟩ := (idx_facts t).2.2.2.2.2.2
  have hi : ((cfg2.win 6).blk t).view.emb (ix2 p q) = ix2 (⟨2000 * t.val + p.val, by omega⟩ : Fin 100000) q :=
    funext fun a => Fin.ext (by
      match a with
      | ⟨0, _⟩ => show win2_6.index t (0 : Fin 2) * 2000 + 1 * p.val = 2000 * t.val + p.val; rw [e0]; omega
      | ⟨1, _⟩ => show win2_6.index t (1 : Fin 2) * 128 + 1 * q.val = q.val; rw [e1]; omega)
  rw [hi]
  refine (out_apply (iblk2 V c 0 t) (iblk2 V c 1 t) (iblk2 V c 2 t) (iblk2 V c 3 t) (iblk2 V c 4 t) (iblk2 V c 5 t) p q).trans ?_
  refine Eq.trans ?_ (sage_apply (V c main_v25) (V c main_v15) (V c main_arg11) (V c main_arg13) (V c main_arg12) (V c main_arg14) ⟨2000 * t.val + p.val, by omega⟩ q).symm
  exact entry_congr (fun k => iblk_g V c t p k _ rfl) (fun k => iblk_h V c t p k _ rfl) (fun k => iblk_Wl V c t k q)
    (fun k => iblk_Wr V c t k q) (iblk_bl V c t q) (iblk_a V c t q)

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v26).slice (win2_6.rect t)).set ↔ _
  rw [View.set_slice_whole, Rect.mem_set_unit]
  exact Iff.rfl

/-- Every row of the array is in some point's block: row `r` in block `r / 2000`. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 2000 < cfg2.N := by show _ < grid2.N; rw [N_2]; omega
  refine ⟨⟨(i 0).val / 2000, ht⟩, flush2_6 _, ?_⟩
  rw [mem_blk]
  obtain ⟨e0, e1⟩ := (idx_facts ⟨(i 0).val / 2000, ht⟩).2.2.2.2.2.2
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e1]; omega

/-- After region 2 its output array is the dense half of the convolution of the arrays the region found. -/
theorem value (c : Dev nD) :
    (dat2 (F := Ideal) V c).arrAt 6 cfg2.N
      = Cert.Spec.sage (F := Ideal) (V c main_v25) (V c main_v15) (V c main_arg11) (V c main_arg12) (V c main_arg13) (V c main_arg14) :=
  (dat2 (F := Ideal) V c).arrAt_eq_of_cover 6 (Cert.Spec.sage (F := Ideal) (V c main_v25) (V c main_v15) (V c main_arg11) (V c main_arg12) (V c main_arg13) (V c main_arg14)) (fun t _ => flushed_eq V c t) cover

end Cert.KVal.R2

end
-- ==== Proof.Region3.lean ====
/-
  Region 3 of the kernel's program, the output layer: after the region its output array is `Cert.Spec.head` of the
  arrays the region finds at entry,

      head fp Wf bf af p Wp bp = [p | prelu (fp · Wf + bf) af] · Wp + bp.

  Two halves. The body's arithmetic: its stored value is one term of the blocks it loads, and that term is `head` of
  those blocks — at the ideal values a product into a zero accumulator and the host's contraction are the same sum over
  the contraction index, a change of float format is the identity, and a vector laid along the rows reads the vector at
  the column however the laying is spelt. The blocks: the grid has one point and every window's block there is its
  whole array, so the loaded blocks are the entry arrays and the one write-back covers the output array.
-/
import proofs.«131736_j56994216017995_1_alg».proof.Proof.Gen.KernelIdeal.Frame
import proofs.«131736_j56994216017995_1_alg».proof.Proof.Stages
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KVal.R3

open Cert.KernelIdeal Cert.KernelIdeal.Gen Idealize.ShloMosaic Idealize.ShloMosaic.TcCoe Idealize.SL.Sem
open Idealize.ShloMosaic.Pipeline (Dat)
open Idealize.ShloMosaic.ValueIdx

/-! ## The two contractions

At the ideal values a product into a zero accumulator and the host's contraction are one and the same sum over the
contraction index of the products of the operands' entries; a change of float format is the identity. So the body's
two products ARE the reference's two contractions, with no re-indexing of the sum. -/

/-- A product of two format-narrowed operands into the zero accumulator is the host's contraction of the operands, over
    the same dimension numbers: both read, at an output index, the sum over the contraction index of the products. -/
theorem matmul_zero_eq_dotGeneral {sl sr so : Shape} (d : DotDims sl sr so) (prec : Option ContractPrecision)
    (lhs : FVec Ideal sl .f32) (rhs : FVec Ideal sr .f32) (hl : FTy.bf16.bits < FTy.f32.bits) (hr : FTy.bf16.bits < FTy.f32.bits) :
    matmul (F := Ideal) d prec (truncf .bf16 lhs hl) (truncf .bf16 rhs hr) (constant so .f32 0x00000000#32)
      = Host.dotGeneral (F := Ideal) d prec lhs rhs := by
  funext j
  exact (Ideal.matmul_constant_zero_apply d prec _ _ j).trans (Ideal.dotGeneral_apply d prec .single lhs rhs j).symm

/-- The kernel's and the reference's dimension numbers for the [512,2048] · [2048,128] product are the same record … -/
theorem dims_emb : Cert.KernelIdeal.dot_S512x2048_S2048x128_S512x128_1_0_0_1_n_n = Cert.ReferenceIdeal.dot_S512x2048_S2048x128_S512x128_1_0_0_1_n_n := rfl
/-- … and for the [512,256] · [256,1] one. -/
theorem dims_out : Cert.KernelIdeal.dot_S512x256_S256x1_S512x1_1_0_0_1_n_n = Cert.ReferenceIdeal.dot_S512x256_S256x1_S512x1_1_0_0_1_n_n := rfl

/-! ## A vector laid along the rows

The body adds a unit axis and broadcasts; the reference broadcasts in dimension twice. Both read, at row `p` and
column `q`, the vector at `q`. -/

/-- A length-128 vector along the 512 rows. -/
theorem row128 (v : Vec Ideal S128 .f32) :
    broadcastTo S512x128 (shapeCast S1x128 v shapeCasts_S128_S1x128) broadcasts_S1x128_S512x128 = Cert.Spec.rowG (F := Ideal) v := by
  funext j
  obtain ⟨p, q, rfl⟩ : ∃ (p : Fin 512) (q : Fin 128), j = ix2 p q := ⟨j 0, j 1, eq_ix2 j⟩
  unfold Cert.Spec.rowG
  refine (broadcastTo_apply _ broadcasts_S1x128_S512x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (shapeCast_apply v shapeCasts_S128_S1x128 (ix2 (0 : Fin 1) q) (ix1 q)
    (by rewrite [Shape.rowMajor_val_two, Shape.rowMajor_val_one]; show q.val = 0 * 128 + q.val; omega)).trans ?_
  symm
  refine (broadcastInDim_apply _ Cert.ReferenceIdeal.Gen.bcast_S1x128_S512x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ Cert.ReferenceIdeal.Gen.bcast_S128_S1x128_1 v (ix2 (0 : Fin 1) q) (ix1 q) (fun a => match a with
    | ⟨0, _⟩ => by show q.val = if (128 : Nat) = 1 then 0 else q.val; rw [if_neg (by decide)])

/-- The one output bias along the 512 rows of the one output column. -/
theorem row1 (v : Vec Ideal S1 .f32) :
    broadcastTo S512x1 (shapeCast S1x1 v shapeCasts_S1_S1x1) broadcasts_S1x1_S512x1
      = broadcastInDim Cert.ReferenceIdeal.S512x1 ![0, 1] Cert.ReferenceIdeal.Gen.bcast_S1x1_S512x1_0_1
          (broadcastInDim Cert.ReferenceIdeal.S1x1 ![1] Cert.ReferenceIdeal.Gen.bcast_S1_S1x1_1 v) := by
  funext j
  obtain ⟨p, q, rfl⟩ : ∃ (p : Fin 512) (q : Fin 1), j = ix2 p q := ⟨j 0, j 1, eq_ix2 j⟩
  refine (broadcastTo_apply _ broadcasts_S1x1_S512x1 (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans ?_
  refine (shapeCast_apply v shapeCasts_S1_S1x1 (ix2 (0 : Fin 1) (0 : Fin 1)) (ix1 (0 : Fin 1))
    (by rewrite [Shape.rowMajor_val_two, Shape.rowMajor_val_one]; show 0 = 0 * 1 + 0; omega)).trans ?_
  symm
  refine (broadcastInDim_apply _ Cert.ReferenceIdeal.Gen.bcast_S1x1_S512x1_0_1 _ (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans ?_
  exact broadcastInDim_apply _ Cert.ReferenceIdeal.Gen.bcast_S1_S1x1_1 v (ix2 (0 : Fin 1) (0 : Fin 1)) (ix1 (0 : Fin 1)) (fun a => match a with
    | ⟨0, _⟩ => by show 0 = if (1 : Nat) = 1 then 0 else 0; rw [if_pos rfl])

/-- The zero the slope's comparison is made against: a splat scalar in the body, a broadcast rank-0 constant in the
    reference; the same word everywhere. -/
theorem zero128 : broadcast S512x128 (FloatOps.ofBits (F := Ideal) .f32 0x00000000#32)
    = broadcastInDim Cert.ReferenceIdeal.S512x128 ![] Cert.ReferenceIdeal.Gen.bcast_S_S512x128 (constant (F := Ideal) Cert.ReferenceIdeal.S_ .f32 0x00000000#32) := by
  funext j
  refine Eq.symm ((broadcastInDim_apply _ Cert.ReferenceIdeal.Gen.bcast_S_S512x128
    (constant (F := Ideal) Cert.ReferenceIdeal.S_ .f32 0x00000000#32) j (fun a => a.elim0) (fun a => a.elim0)).trans ?_)
  rfl

/-! ## The body's arithmetic is the output layer -/

/-- The body's stored value, as one term of the blocks it loads, is `head` of them: the embedding's product and bias,
    the slope where not positive, the pooled features joined on the left, the output product and bias. -/
theorem pay_eq (x0 : Vec Ideal S512x2048 .f32) (x1 : Vec Ideal S2048x128 .f32) (x2 x3 : Vec Ideal S128 .f32)
    (x4 : Vec Ideal S512x128 .f32) (x5 : Vec Ideal S256x1 .f32) (x6 : Vec Ideal S1 .f32) :
    k3_pay1 (F := Ideal) x0 x1 x2 x3 x4 x5 x6 = Cert.Spec.head (F := Ideal) x0 x1 x2 x3 x4 x5 x6 := by
  unfold k3_pay1 Cert.Spec.head Cert.Spec.fpEmb
  dsimp only
  rw [matmul_zero_eq_dotGeneral, matmul_zero_eq_dotGeneral, row128 x2, row128 x3, row1 x6, zero128,
    shapeCast_self x4 shapeCasts_S512x128_S512x128, dims_emb, dims_out]

-- the TensorCore's buffer contents when the region is entered
variable (V : (c : Dev nD) → (b : Ref sig .tc) → Buf (Elt Ideal) ((c : Thread nD τ).loc b))

/-! ## One grid point, whole-array blocks

The region's grid has one point, and every window's block there is its whole array: block index 0 on every axis and
the block's extents the array's, so an entry of the block at `y` is the array's entry at `0 · extent + 1 · y = y`. -/

/-- The stores and loads of the body go through the whole staging buffer: offsets zero. -/
theorem hz2 : (![0, 0] : Fin 2 → Nat) = fun _ => 0 := funext fun a => by match a with | ⟨0, _⟩ => rfl | ⟨1, _⟩ => rfl
theorem hz1 : (![0] : Fin 1 → Nat) = fun _ => 0 := funext fun a => by match a with | ⟨0, _⟩ => rfl

/-- The windows' index maps, decided over the grid: every window's block index is 0 on every axis. -/
theorem idx_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 1) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0 :=
  (by decide +kernel : ∀ t : Fin grid3.N, _)

/-- The fingerprints' block is the fingerprint array. -/
theorem blk0 (c : Dev nD) (t : Fin cfg3.N) :
    (iblk3 (F := Ideal) V c 0 t : Vec Ideal S512x2048 .f32) = (V c main_arg1 : Vec Ideal S512x2048 .f32) := by
  obtain ⟨e0, e1, -⟩ := idx_zero t
  funext y
  show V c main_arg1 (((cfg3.win 0).blk t).view.emb y) = V c main_arg1 y
  have h : ((cfg3.win 0).blk t).view.emb y = y := by
    funext a; apply Fin.ext
    match a with
    | ⟨0, _⟩ => show win3_0.index t (0 : Fin 2) * 512 + 1 * (y 0).val = (y 0).val; rw [e0]; omega
    | ⟨1, _⟩ => show win3_0.index t (1 : Fin 2) * 2048 + 1 * (y 1).val = (y 1).val; rw [e1]; omega
  rw [h]

/-- The embedding weights' block is their array. -/
theorem blk1 (c : Dev nD) (t : Fin cfg3.N) :
    (iblk3 (F := Ideal) V c 1 t : Vec Ideal S2048x128 .f32) = (V c main_arg15 : Vec Ideal S2048x128 .f32) := by
  obtain ⟨-, -, e0, e1, -⟩ := idx_zero t
  funext y
  show V c main_arg15 (((cfg3.win 1).blk t).view.emb y) = V c main_arg15 y
  have h : ((cfg3.win 1).blk t).view.emb y = y := by
    funext a; apply Fin.ext
    match a with
    | ⟨0, _⟩ => show win3_1.index t (0 : Fin 2) * 2048 + 1 * (y 0).val = (y 0).val; rw [e0]; omega
    | ⟨1, _⟩ => show win3_1.index t (1 : Fin 2) * 128 + 1 * (y 1).val = (y 1).val; rw [e1]; omega
  rw [h]

/-- The embedding bias's block is its array. -/
theorem blk2 (c : Dev nD) (t : Fin cfg3.N) :
    (iblk3 (F := Ideal) V c 2 t : Vec Ideal S128 .f32) = (V c main_arg16 : Vec Ideal S128 .f32) := by
  obtain ⟨-, -, -, -, e0, -⟩ := idx_zero t
  funext y
  show V c main_arg16 (((cfg3.win 2).blk t).view.emb y) = V c main_arg16 y
  have h : ((cfg3.win 2).blk t).view.emb y = y := by
    funext a; apply Fin.ext
    match a with
    | ⟨0, _⟩ => show win3_2.index t (0 : Fin 1) * 128 + 1 * (y 0).val = (y 0).val; rw [e0]; omega
  rw [h]

/-- The embedding slope's block is its array. -/
theorem blk3 (c : Dev nD) (t : Fin cfg3.N) :
    (iblk3 (F := Ideal) V c 3 t : Vec Ideal S128 .f32) = (V c main_arg17 : Vec Ideal S128 .f32) := by
  obtain ⟨-, -, -, -, -, e0, -⟩ := idx_zero t
  funext y
  show V c main_arg17 (((cfg3.win 3).blk t).view.emb y) = V c main_arg17 y
  have h : ((cfg3.win 3).blk t).view.emb y = y := by
    funext a; apply Fin.ext
    match a with
    | ⟨0, _⟩ => show win3_3.index t (0 : Fin 1) * 128 + 1 * (y 0).val = (y 0).val; rw [e0]; omega
  rw [h]

/-- The pooled features' block is their array. -/
theorem blk4 (c : Dev nD) (t : Fin cfg3.N) :
    (iblk3 (F := Ideal) V c 4 t : Vec Ideal S512x128 .f32) = (V c main_v38 : Vec Ideal S512x128 .f32) := by
  obtain ⟨-, -, -, -, -, -, e0, e1, -⟩ := idx_zero t
  funext y
  show V c main_v38 (((cfg3.win 4).blk t).view.emb y) = V c main_v38 y
  have h : ((cfg3.win 4).blk t).view.emb y = y := by
    funext a; apply Fin.ext
    match a with
    | ⟨0, _⟩ => show win3_4.index t (0 : Fin 2) * 512 + 1 * (y 0).val = (y 0).val; rw [e0]; omega
    | ⟨1, _⟩ => show win3_4.index t (1 : Fin 2) * 128 + 1 * (y 1).val = (y 1).val; rw [e1]; omega
  rw [h]

/-- The output weights' block is their array. -/
theorem blk5 (c : Dev nD) (t : Fin cfg3.N) :
    (iblk3 (F := Ideal) V c 5 t : Vec Ideal S256x1 .f32) = (V c main_arg18 : Vec Ideal S256x1 .f32) := by
  obtain ⟨-, -, -, -, -, -, -, -, e0, e1, -⟩ := idx_zero t
  funext y
  show V c main_arg18 (((cfg3.win 5).blk t).view.emb y) = V c main_arg18 y
  have h : ((cfg3.win 5).blk t).view.emb y = y := by
    funext a; apply Fin.ext
    match a with
    | ⟨0, _⟩ => show win3_5.index t (0 : Fin 2) * 256 + 1 * (y 0).val = (y 0).val; rw [e0]; omega
    | ⟨1, _⟩ => show win3_5.index t (1 : Fin 2) * 1 + 1 * (y 1).val = (y 1).val; rw [e1]; omega
  rw [h]

/-- The output bias's block is its array. -/
theorem blk6 (c : Dev nD) (t : Fin cfg3.N) :
    (iblk3 (F := Ideal) V c 6 t : Vec Ideal S1 .f32) = (V c main_arg19 : Vec Ideal S1 .f32) := by
  obtain ⟨-, -, -, -, -, -, -, -, -, -, e0, -⟩ := idx_zero t
  funext y
  show V c main_arg19 (((cfg3.win 6).blk t).view.emb y) = V c main_arg19 y
  have h : ((cfg3.win 6).blk t).view.emb y = y := by
    funext a; apply Fin.ext
    match a with
    | ⟨0, _⟩ => show win3_6.index t (0 : Fin 1) * 1 + 1 * (y 0).val = (y 0).val; rw [e0]; omega
  rw [h]

/-! ## What the region leaves in its output array -/

/-- The output layer of the arrays the region finds at entry. -/
abbrev headArr (c : Dev nD) : Vec Ideal S512x1 .f32 :=
  Cert.Spec.head (F := Ideal) (V c main_arg1) (V c main_arg15) (V c main_arg16) (V c main_arg17) (V c main_v38) (V c main_arg18) (V c main_arg19)

/-- The output's staging buffer after the body: its one store covers the buffer, the loads read the whole blocks, and
    the stored value is the output layer of the blocks. -/
theorem out_eq (x0 : Vec Ideal S512x2048 .f32) (x1 : Vec Ideal S2048x128 .f32) (x2 x3 : Vec Ideal S128 .f32)
    (x4 : Vec Ideal S512x128 .f32) (x5 : Vec Ideal S256x1 .f32) (x6 : Vec Ideal S1 .f32) :
    out3_7 (F := Ideal) x0 x1 x2 x3 x4 x5 x6 = Cert.Spec.head (F := Ideal) x0 x1 x2 x3 x4 x5 x6 := by
  unfold out3_7
  rw [View.canon_unit_zero hz2]
  simp only [View.ld_unit_zero (S := S512x2048) hz2, View.ld_unit_zero (S := S2048x128) hz2, View.ld_unit_zero (S := S128) hz1,
    View.ld_unit_zero (S := S512x128) hz2, View.ld_unit_zero (S := S256x1) hz2, View.ld_unit_zero (S := S1) hz1]
  exact pay_eq x0 x1 x2 x3 x4 x5 x6

/-- The output layer of equal arrays is equal. -/
theorem head_congr {a0 b0 : Vec Ideal S512x2048 .f32} {a1 b1 : Vec Ideal S2048x128 .f32} {a2 b2 a3 b3 : Vec Ideal S128 .f32}
    {a4 b4 : Vec Ideal S512x128 .f32} {a5 b5 : Vec Ideal S256x1 .f32} {a6 b6 : Vec Ideal S1 .f32}
    (h0 : a0 = b0) (h1 : a1 = b1) (h2 : a2 = b2) (h3 : a3 = b3) (h4 : a4 = b4) (h5 : a5 = b5) (h6 : a6 = b6) :
    Cert.Spec.head (F := Ideal) a0 a1 a2 a3 a4 a5 a6 = Cert.Spec.head (F := Ideal) b0 b1 b2 b3 b4 b5 b6 := by
  subst h0 h1 h2 h3 h4 h5 h6; rfl

/-- After the body at the grid's point the output's staging buffer holds the output layer of the entry arrays. -/
theorem after7_eq (c : Dev nD) (t : Fin cfg3.N) : (dat3 (F := Ideal) V c).after 7 t = headArr V c :=
  (after3_7 V c t).trans ((out_eq (iblk3 V c 0 t) (iblk3 V c 1 t) (iblk3 V c 2 t) (iblk3 V c 3 t) (iblk3 V c 4 t) (iblk3 V c 5 t) (iblk3 V c 6 t)).trans
    (head_congr (blk0 V c t) (blk1 V c t) (blk2 V c t) (blk3 V c t) (blk4 V c t) (blk5 V c t) (blk6 V c t)))

/-- The output window's block is the whole output array, whatever the array holds. -/
theorem whole_blk7 (t : Fin cfg3.N) (G : Vec Ideal S512x1 .f32) :
    (cfg3.win 7).cut (grid3.coords t) G = ((cfg3.win 7).blk t).view.read (Elt Ideal) G := by
  obtain ⟨-, -, -, -, -, -, -, -, -, -, -, e0, e1⟩ := idx_zero t
  funext j
  show G j = G (((cfg3.win 7).blk t).view.emb j)
  have h : ((cfg3.win 7).blk t).view.emb j = j := by
    funext a; apply Fin.ext
    match a with
    | ⟨0, _⟩ => show win3_7.index t (0 : Fin 2) * 512 + 1 * (j 0).val = (j 0).val; rw [e0]; omega
    | ⟨1, _⟩ => show win3_7.index t (1 : Fin 2) * 1 + 1 * (j 1).val = (j 1).val; rw [e1]; omega
  rw [h]

/-- What the point writes back is its block — the whole — of the output layer of the entry arrays. -/
theorem flushed_eq (c : Dev nD) (t : Fin cfg3.N) :
    (dat3 (F := Ideal) V c).flushed 7 t = ((cfg3.win 7).blk t).view.read (Elt Ideal) (headArr V c) := by
  show (cfg3.win 7).cut (grid3.coords t) ((dat3 (F := Ideal) V c).after 7 t) = _
  rw [after7_eq V c t]
  exact whole_blk7 t (headArr V c)

/-- An index of the output array is in the point's block iff each coordinate is in the block's range on its axis. -/
theorem mem_blk7 (t : Fin cfg3.N) (i : S512x1.Idx) :
    i ∈ ((cfg3.win 7).blk t).view.set ↔ ∀ a : Fin 2, win3_7.index t a * S512x1.size a ≤ (i a).val ∧ (i a).val < win3_7.index t a * S512x1.size a + S512x1.size a := by
  show i ∈ ((View.whole main_v39).slice (win3_7.rect t)).set ↔ _
  rw [View.set_slice_whole, Rect.mem_set_unit]
  exact Iff.rfl

/-- Every index of the output array is in the one point's block, and that point writes back. -/
theorem cover7 (i : S512x1.Idx) : ∃ t : Fin cfg3.N, (cfg3.win 7).flush t = true ∧ i ∈ ((cfg3.win 7).blk t).view.set := by
  obtain ⟨-, -, -, -, -, -, -, -, -, -, -, e0, e1⟩ := idx_zero t3_0
  refine ⟨t3_0, flush3_7 t3_0, ?_⟩
  rw [mem_blk7]
  intro a
  match a with
  | ⟨0, _⟩ =>
    show win3_7.index t3_0 (0 : Fin 2) * 512 ≤ (i 0).val ∧ (i 0).val < win3_7.index t3_0 (0 : Fin 2) * 512 + 512
    have hi : (i 0).val < 512 := (i 0).isLt
    rw [e0]; omega
  | ⟨1, _⟩ =>
    show win3_7.index t3_0 (1 : Fin 2) * 1 ≤ (i 1).val ∧ (i 1).val < win3_7.index t3_0 (1 : Fin 2) * 1 + 1
    have hi : (i 1).val < 1 := (i 1).isLt
    rw [e1]; omega

/-- After region 3 its output array is the output layer of the arrays the region found. -/
theorem value (c : Dev nD) :
    (dat3 (F := Ideal) V c).arrAt 7 cfg3.N
      = Cert.Spec.head (F := Ideal) (V c main_arg1) (V c main_arg15) (V c main_arg16) (V c main_arg17) (V c main_v38) (V c main_arg18) (V c main_arg19) :=
  (dat3 (F := Ideal) V c).arrAt_eq_of_cover 7 (headArr V c) (fun t _ => flushed_eq V c t) (fun i => cover7 i)

end Cert.KVal.R3

end
-- ==== Proof.Glue.lean ====
/-
  The kernel program's result as the composition of the stage functions. The frame folds the TensorCore's buffer
  contents through @main: launch (W0), after the first stretch of host operations (W1), after region 0 (W2), and so on
  to the last region's exit (W8). Walking that fold forward: the first stretch cuts the edge list into its source and
  destination rows; region 0 leaves the input layer of the arguments; each following stretch is the gather and
  scatter-add of message passing (or, the last one, mean pooling) applied to what the region before it left; each
  region is the dense layer of what it finds. A buffer that a stretch or a region does not write keeps its contents,
  so every weight reaches the region that reads it as launched.
-/
import proofs.«131736_j56994216017995_1_alg».proof.Proof.Gen.KernelIdeal.Frame
import proofs.«131736_j56994216017995_1_alg».proof.Proof.Stages
import proofs.«131736_j56994216017995_1_alg».proof.Proof.Region0
import proofs.«131736_j56994216017995_1_alg».proof.Proof.Region1
import proofs.«131736_j56994216017995_1_alg».proof.Proof.Region2
import proofs.«131736_j56994216017995_1_alg».proof.Proof.Region3
import Idealize.ShloMosaic.Lib.StableHlo.Run
import Idealize.ShloMosaic.PureOps.Ideal

set_option maxRecDepth 16384

noncomputable section

namespace Cert.KVal

open Cert.KernelIdeal Cert.KernelIdeal.Gen Idealize.ShloMosaic Idealize.ShloMosaic.TcCoe Idealize.SL.Sem Idealize.ShloMosaic.StableHlo

/-! ## The host stretches, for any float family -/

section Host

variable {F : FTy → Type} [FloatOps F]
variable (m : (ℓ : Loc nD τ sig) → Buf (Elt F) ℓ) (ρ : Dev nD → PrngReg)

/-- The buffers each stretch of host operations writes. -/
def wr0 : List (Ref sig .tc) := [main_v0, main_v1, main_v2, main_v3]
def wr1 : List (Ref sig .tc) := [main_c, main_v5, main_v6, main_c_0, main_v7, main_v8, main_v9, main_v10, main_v11, main_cst, main_v12, main_v13, main_v14]
def wr2 : List (Ref sig .tc) := [main_c_1, main_v16, main_v17, main_c_2, main_v18, main_v19, main_v20, main_v21, main_v22, main_cst_3, main_v23, main_v24, main_v25]
def wr3 : List (Ref sig .tc) := [main_cst_4, main_v27, main_v28, main_v29, main_cst_5, main_v30, main_cst_6, main_v31, main_v32, main_v33, main_cst_7, main_v34, main_v35, main_v36, main_v37, main_v38]

theorem single_sub {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map.mpr ⟨r, h, rfl⟩))

theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)

theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub (by decide)

theorem writes2 : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact single_sub (by decide)

theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact single_sub (by decide)

/-! ### A buffer that a stretch does not write, and that is no array of a region, keeps its contents -/

theorem keep0 (c : Dev nD) {b : Ref sig .tc} (hb : b ∉ wr0) : W1 m ρ c (Proc.devRef .tc b) = m ((c : Thread nD τ).loc b) :=
  StableHlo.after_of_writes_sub hostOps0 (W0 m ρ c) writes0 hb
theorem keep1 (c : Dev nD) {b : Ref sig .tc} (hb : b ∉ wr1) : W3 m ρ c (Proc.devRef .tc b) = W2 m ρ c (Proc.devRef .tc b) :=
  StableHlo.after_of_writes_sub hostOps1 (W2 m ρ c) writes1 hb
theorem keep2 (c : Dev nD) {b : Ref sig .tc} (hb : b ∉ wr2) : W5 m ρ c (Proc.devRef .tc b) = W4 m ρ c (Proc.devRef .tc b) :=
  StableHlo.after_of_writes_sub hostOps2 (W4 m ρ c) writes2 hb
theorem keep3 (c : Dev nD) {b : Ref sig .tc} (hb : b ∉ wr3) : W7 m ρ c (Proc.devRef .tc b) = W6 m ρ c (Proc.devRef .tc b) :=
  StableHlo.after_of_writes_sub hostOps3 (W6 m ρ c) writes3 hb

theorem upto2 (c : Dev nD) {b : Ref sig .tc} (h0 : b ∉ wr0) (r0 : ∀ w, Pipeline.arrRef spec0 w ≠ b) :
    W2 m ρ c (Proc.devRef .tc b) = m ((c : Thread nD τ).loc b) :=
  (W2_of_ne m ρ c b r0).trans (keep0 m ρ c h0)
theorem upto3 (c : Dev nD) {b : Ref sig .tc} (h0 : b ∉ wr0) (r0 : ∀ w, Pipeline.arrRef spec0 w ≠ b) (h1 : b ∉ wr1) :
    W3 m ρ c (Proc.devRef .tc b) = m ((c : Thread nD τ).loc b) :=
  (keep1 m ρ c h1).trans (upto2 m ρ c h0 r0)
theorem upto4 (c : Dev nD) {b : Ref sig .tc} (h0 : b ∉ wr0) (r0 : ∀ w, Pipeline.arrRef spec0 w ≠ b) (h1 : b ∉ wr1)
    (r1 : ∀ w, Pipeline.arrRef spec1 w ≠ b) : W4 m ρ c (Proc.devRef .tc b) = m ((c : Thread nD τ).loc b) :=
  (W4_of_ne m ρ c b r1).trans (upto3 m ρ c h0 r0 h1)
theorem upto5 (c : Dev nD) {b : Ref sig .tc} (h0 : b ∉ wr0) (r0 : ∀ w, Pipeline.arrRef spec0 w ≠ b) (h1 : b ∉ wr1)
    (r1 : ∀ w, Pipeline.arrRef spec1 w ≠ b) (h2 : b ∉ wr2) : W5 m ρ c (Proc.devRef .tc b) = m ((c : Thread nD τ).loc b) :=
  (keep2 m ρ c h2).trans (upto4 m ρ c h0 r0 h1 r1)
theorem upto6 (c : Dev nD) {b : Ref sig .tc} (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) :
    W6 m ρ c (Proc.devRef .tc b) = m ((c : Thread nD τ).loc b) :=
  (W6_of_ne m ρ c b r2).trans (upto5 m ρ c h0 r0 h1 r1 h2)
theorem upto7 (c : Dev nD) {b : Ref sig .tc} (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3) :
    W7 m ρ c (Proc.devRef .tc b) = m ((c : Thread nD τ).loc b) :=
  (keep3 m ρ c h3).trans (upto6 m ρ c h0 r0 h1 r1 h2 r2)

/-! ### The edge list's two rows, from the first stretch to the two stretches that read them -/

/-- After the first stretch the source row of the edge list. -/
theorem W1_v1 (c : Dev nD) : W1 m ρ c (Proc.devRef .tc main_v1) = Cert.Spec.src (m ((c : Thread nD τ).loc main_arg2)) := by
  show StableHlo.after hostOps0 (W0 m ρ c) (Proc.devRef .tc main_v1) = _
  after_results
  rfl

/-- After the first stretch the destination row of the edge list. -/
theorem W1_v3 (c : Dev nD) : W1 m ρ c (Proc.devRef .tc main_v3) = Cert.Spec.dst (m ((c : Thread nD τ).loc main_arg2)) := by
  show StableHlo.after hostOps0 (W0 m ρ c) (Proc.devRef .tc main_v3) = _
  after_results
  rfl

theorem W2_v1 (c : Dev nD) : W2 m ρ c (Proc.devRef .tc main_v1) = Cert.Spec.src (m ((c : Thread nD τ).loc main_arg2)) :=
  (W2_of_ne m ρ c main_v1 (by decide)).trans (W1_v1 m ρ c)
theorem W2_v3 (c : Dev nD) : W2 m ρ c (Proc.devRef .tc main_v3) = Cert.Spec.dst (m ((c : Thread nD τ).loc main_arg2)) :=
  (W2_of_ne m ρ c main_v3 (by decide)).trans (W1_v3 m ρ c)
theorem W4_v1 (c : Dev nD) : W4 m ρ c (Proc.devRef .tc main_v1) = Cert.Spec.src (m ((c : Thread nD τ).loc main_arg2)) :=
  (W4_of_ne m ρ c main_v1 (by decide)).trans ((keep1 m ρ c (b := main_v1) (by decide)).trans (W2_v1 m ρ c))
theorem W4_v3 (c : Dev nD) : W4 m ρ c (Proc.devRef .tc main_v3) = Cert.Spec.dst (m ((c : Thread nD τ).loc main_arg2)) :=
  (W4_of_ne m ρ c main_v3 (by decide)).trans ((keep1 m ρ c (b := main_v3) (by decide)).trans (W2_v3 m ρ c))

/-! ### The three stretches between the regions: message passing twice, then mean pooling -/

/-- The second stretch gathers the rows of what region 0 left at the edges' sources and adds them at the destinations. -/
theorem W3_v14 (c : Dev nD) :
    W3 m ρ c (Proc.devRef .tc main_v14) = Cert.Spec.agg (W2 m ρ c (Proc.devRef .tc main_v4)) (m ((c : Thread nD τ).loc main_arg2)) := by
  show StableHlo.after hostOps1 (W2 m ρ c) (Proc.devRef .tc main_v14) = _
  after_results
  rw [W2_v1 m ρ c, W2_v3 m ρ c]
  rfl

/-- The third stretch does the same with what region 1 left. -/
theorem W5_v25 (c : Dev nD) :
    W5 m ρ c (Proc.devRef .tc main_v25) = Cert.Spec.agg (W4 m ρ c (Proc.devRef .tc main_v15)) (m ((c : Thread nD τ).loc main_arg2)) := by
  show StableHlo.after hostOps2 (W4 m ρ c) (Proc.devRef .tc main_v25) = _
  after_results
  rw [W4_v1 m ρ c, W4_v3 m ρ c]
  rfl

/-- The last stretch pools what region 2 left, graph by graph. -/
theorem W7_v38 (c : Dev nD) :
    W7 m ρ c (Proc.devRef .tc main_v38) = Cert.Spec.pool (W6 m ρ c (Proc.devRef .tc main_v26)) (m ((c : Thread nD τ).loc main_arg3)) := by
  show StableHlo.after hostOps3 (W6 m ρ c) (Proc.devRef .tc main_v38) = _
  after_results
  rw [upto6 m ρ c (b := main_arg3) (by decide) (by decide) (by decide) (by decide) (by decide) (by decide)]
  rfl

end Host

/-! ## The regions, on the extended reals -/

section Value

variable (m : (ℓ : Loc nD τ sig) → Buf (Elt Ideal) ℓ) (ρ : Dev nD → PrngReg)

/-- Region 0 leaves the input layer of the arguments. -/
theorem W2_v4 (c : Dev nD) :
    W2 m ρ c (Proc.devRef .tc main_v4) = Cert.Spec.lin (m ((c : Thread nD τ).loc main_arg0)) (m ((c : Thread nD τ).loc main_arg4)) (m ((c : Thread nD τ).loc main_arg5)) (m ((c : Thread nD τ).loc main_arg6)) := by
  refine (W2_arr m ρ c 4).trans ((Cert.KVal.R0.value (V1 m ρ) c).trans ?_)
  show Cert.Spec.lin (W1 m ρ c (Proc.devRef .tc main_arg0)) (W1 m ρ c (Proc.devRef .tc main_arg4)) (W1 m ρ c (Proc.devRef .tc main_arg5)) (W1 m ρ c (Proc.devRef .tc main_arg6)) = _
  rw [keep0 m ρ c (b := main_arg0) (by decide), keep0 m ρ c (b := main_arg4) (by decide),
    keep0 m ρ c (b := main_arg5) (by decide), keep0 m ρ c (b := main_arg6) (by decide)]

/-- Region 1 leaves the node features after the first convolution. -/
theorem W4_v15 (c : Dev nD) :
    W4 m ρ c (Proc.devRef .tc main_v15)
      = Cert.Spec.h1 (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((Cert.KVal.R1.value (V3 m ρ) c).trans ?_)
  show Cert.Spec.sage (W3 m ρ c (Proc.devRef .tc main_v14)) (W3 m ρ c (Proc.devRef .tc main_v4)) (W3 m ρ c (Proc.devRef .tc main_arg7)) (W3 m ρ c (Proc.devRef .tc main_arg8)) (W3 m ρ c (Proc.devRef .tc main_arg9)) (W3 m ρ c (Proc.devRef .tc main_arg10)) = _
  rw [W3_v14 m ρ c, keep1 m ρ c (b := main_v4) (by decide), W2_v4 m ρ c,
    upto3 m ρ c (b := main_arg7) (by decide) (by decide) (by decide), upto3 m ρ c (b := main_arg8) (by decide) (by decide) (by decide),
    upto3 m ρ c (b := main_arg9) (by decide) (by decide) (by decide), upto3 m ρ c (b := main_arg10) (by decide) (by decide) (by decide)]
  rfl

/-- Region 2 leaves the node features after the second convolution. -/
theorem W6_v26 (c : Dev nD) :
    W6 m ρ c (Proc.devRef .tc main_v26)
      = Cert.Spec.h2 (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 6).trans ((Cert.KVal.R2.value (V5 m ρ) c).trans ?_)
  show Cert.Spec.sage (W5 m ρ c (Proc.devRef .tc main_v25)) (W5 m ρ c (Proc.devRef .tc main_v15)) (W5 m ρ c (Proc.devRef .tc main_arg11)) (W5 m ρ c (Proc.devRef .tc main_arg12)) (W5 m ρ c (Proc.devRef .tc main_arg13)) (W5 m ρ c (Proc.devRef .tc main_arg14)) = _
  rw [W5_v25 m ρ c, keep2 m ρ c (b := main_v15) (by decide), W4_v15 m ρ c,
    upto5 m ρ c (b := main_arg11) (by decide) (by decide) (by decide) (by decide) (by decide), upto5 m ρ c (b := main_arg12) (by decide) (by decide) (by decide) (by decide) (by decide),
    upto5 m ρ c (b := main_arg13) (by decide) (by decide) (by decide) (by decide) (by decide), upto5 m ρ c (b := main_arg14) (by decide) (by decide) (by decide) (by decide) (by decide)]
  rfl

/-- THE KERNEL'S RESULT: at the last region's exit the result buffer holds the network's output of the arguments. -/
theorem kernel_value (c : Dev nD) :
    W8 m ρ c (Proc.devRef .tc main_v39)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W8_arr m ρ c 7).trans ((Cert.KVal.R3.value (V7 m ρ) c).trans ?_)
  show Cert.Spec.head (W7 m ρ c (Proc.devRef .tc main_arg1)) (W7 m ρ c (Proc.devRef .tc main_arg15)) (W7 m ρ c (Proc.devRef .tc main_arg16)) (W7 m ρ c (Proc.devRef .tc main_arg17)) (W7 m ρ c (Proc.devRef .tc main_v38)) (W7 m ρ c (Proc.devRef .tc main_arg18)) (W7 m ρ c (Proc.devRef .tc main_arg19)) = _
  rw [W7_v38 m ρ c, W6_v26 m ρ c,
    upto7 m ρ c (b := main_arg1) (by decide) (by decide) (by decide) (by decide) (by decide) (by decide) (by decide), upto7 m ρ c (b := main_arg15) (by decide) (by decide) (by decide) (by decide) (by decide) (by decide) (by decide),
    upto7 m ρ c (b := main_arg16) (by decide) (by decide) (by decide) (by decide) (by decide) (by decide) (by decide), upto7 m ρ c (b := main_arg17) (by decide) (by decide) (by decide) (by decide) (by decide) (by decide) (by decide),
    upto7 m ρ c (b := main_arg18) (by decide) (by decide) (by decide) (by decide) (by decide) (by decide) (by decide), upto7 m ρ c (b := main_arg19) (by decide) (by decide) (by decide) (by decide) (by decide) (by decide) (by decide)]
  rfl

end Value

end Cert.KVal

end
-- ==== Proof.RefStaged.lean ====
/-
  The reference program's run, read stretch by stretch. Its @main is 99 host operations in a line; cut where the
  kernel's program has its region boundaries, the line is seven stretches: the input layer (with the edge list's two
  rows), message passing, a dense layer, message passing, a dense layer, mean pooling, the output layer. Each stretch's
  result is the stage function of what the stretches before it left, and a buffer a stretch does not write keeps its
  contents; so the result buffer ends at the network's output of the arguments, and every argument as launched.
-/
import proofs.«131736_j56994216017995_1_alg».proof.Proof.RefOps
import proofs.«131736_j56994216017995_1_alg».proof.Proof.Stages
import Idealize.ShloMosaic.Lib.Pipeline.Frame

set_option maxRecDepth 16384

noncomputable section

namespace Cert.RefVal

open Cert.ReferenceIdeal Cert.ReferenceIdeal.Gen Cert.ReferenceIdeal.RunP Idealize.ShloMosaic Idealize.ShloMosaic.TcCoe
  Idealize.SL.Sem Idealize.ShloMosaic.StableHlo

variable {F : FTy → Type} [FloatOps F]

/-! ## The seven stretches and the buffer contents between them -/

abbrev s1 : List (HloOp τ sig (Elt F)) := ops.take 15
abbrev s2 : List (HloOp τ sig (Elt F)) := (ops.drop 15).take 13
abbrev s3 : List (HloOp τ sig (Elt F)) := (ops.drop 28).take 13
abbrev s4 : List (HloOp τ sig (Elt F)) := (ops.drop 41).take 13
abbrev s5 : List (HloOp τ sig (Elt F)) := (ops.drop 54).take 13
abbrev s6 : List (HloOp τ sig (Elt F)) := (ops.drop 67).take 16
abbrev s7 : List (HloOp τ sig (Elt F)) := ops.drop 83

theorem ops_cut : (ops : List (HloOp τ sig (Elt F))) = s1 ++ (s2 ++ (s3 ++ (s4 ++ (s5 ++ (s6 ++ s7))))) := by
  simp only [s1, s2, s3, s4, s5, s6, s7, ops, List.take_succ_cons, List.take_zero, List.drop_succ_cons, List.drop_zero, List.cons_append, List.nil_append]

variable (m : (ℓ : Loc nD τ sig) → Buf (Elt F) ℓ) (c : Dev nD)

def U1 : Valuation τ sig (Elt F) := StableHlo.after s1 (launchContents m c)
def U2 : Valuation τ sig (Elt F) := StableHlo.after s2 (U1 m c)
def U3 : Valuation τ sig (Elt F) := StableHlo.after s3 (U2 m c)
def U4 : Valuation τ sig (Elt F) := StableHlo.after s4 (U3 m c)
def U5 : Valuation τ sig (Elt F) := StableHlo.after s5 (U4 m c)
def U6 : Valuation τ sig (Elt F) := StableHlo.after s6 (U5 m c)
def U7 : Valuation τ sig (Elt F) := StableHlo.after s7 (U6 m c)

/-- The whole line is the seven stretches one after the other. -/
theorem after_ops : StableHlo.after ops (launchContents m c) = U7 m c := by
  rw [congrArg (fun l => StableHlo.after l (launchContents m c)) (ops_cut (F := F))]
  simp only [StableHlo.after_append]
  rfl

/-! ## What each stretch writes; a buffer it does not write keeps its contents -/

def wr1 : List (Ref sig .tc) := [main_v0, main_v1, main_v2, main_v3, main_v4, main_v5, main_v6, main_v7, main_cst, main_v8, main_v9, main_v10, main_v11, main_v12, main_v13]
def wr2 : List (Ref sig .tc) := [main_c, main_v14, main_v15, main_c_0, main_v16, main_v17, main_v18, main_v19, main_v20, main_cst_1, main_v21, main_v22, main_v23]
def wr3 : List (Ref sig .tc) := [main_v24, main_v25, main_v26, main_v27, main_v28, main_v29, main_cst_2, main_v30, main_v31, main_v32, main_v33, main_v34, main_v35]
def wr4 : List (Ref sig .tc) := [main_c_3, main_v36, main_v37, main_c_4, main_v38, main_v39, main_v40, main_v41, main_v42, main_cst_5, main_v43, main_v44, main_v45]
def wr5 : List (Ref sig .tc) := [main_v46, main_v47, main_v48, main_v49, main_v50, main_v51, main_cst_6, main_v52, main_v53, main_v54, main_v55, main_v56, main_v57]
def wr6 : List (Ref sig .tc) := [main_cst_7, main_v58, main_v59, main_v60, main_cst_8, main_v61, main_cst_9, main_v62, main_v63, main_v64, main_cst_10, main_v65, main_v66, main_v67, main_v68, main_v69]
def wr7 : List (Ref sig .tc) := [main_v70, main_v71, main_v72, main_v73, main_cst_11, main_v74, main_v75, main_v76, main_v77, main_v78, main_v79, main_v80, main_v81, main_v82, main_v83, main_v84]

theorem single_sub {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map.mpr ⟨r, h, rfl⟩))

theorem writes1 : (s1 : List (HloOp τ sig (Elt F))).Forall fun op => op.writes ⊆ (wr1.map (Proc.devRef (τ := τ) .tc)).toFinset := by
  simp only [s1, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem writes2 : (s2 : List (HloOp τ sig (Elt F))).Forall fun op => op.writes ⊆ (wr2.map (Proc.devRef (τ := τ) .tc)).toFinset := by
  simp only [s2, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem writes3 : (s3 : List (HloOp τ sig (Elt F))).Forall fun op => op.writes ⊆ (wr3.map (Proc.devRef (τ := τ) .tc)).toFinset := by
  simp only [s3, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem writes4 : (s4 : List (HloOp τ sig (Elt F))).Forall fun op => op.writes ⊆ (wr4.map (Proc.devRef (τ := τ) .tc)).toFinset := by
  simp only [s4, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem writes5 : (s5 : List (HloOp τ sig (Elt F))).Forall fun op => op.writes ⊆ (wr5.map (Proc.devRef (τ := τ) .tc)).toFinset := by
  simp only [s5, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem writes6 : (s6 : List (HloOp τ sig (Elt F))).Forall fun op => op.writes ⊆ (wr6.map (Proc.devRef (τ := τ) .tc)).toFinset := by
  simp only [s6, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem writes7 : (s7 : List (HloOp τ sig (Elt F))).Forall fun op => op.writes ⊆ (wr7.map (Proc.devRef (τ := τ) .tc)).toFinset := by
  simp only [s7, ops, List.take_succ_cons, List.take_zero, List.drop_succ_cons, List.drop_zero, List.Forall, StableHlo.nullary_writes, StableHlo.unary_writes, StableHlo.binary_writes, StableHlo.ternary_writes, StableHlo.reshape_writes]
  repeat' apply And.intro
  all_goals exact single_sub (by decide)

theorem keep1 {b : Ref sig .tc} (hb : b ∉ wr1) : U1 m c (Proc.devRef .tc b) = m ((c.tc : Thread nD τ).loc b) :=
  StableHlo.after_of_writes_sub s1 (launchContents m c) writes1 hb
theorem keep2 {b : Ref sig .tc} (hb : b ∉ wr2) : U2 m c (Proc.devRef .tc b) = U1 m c (Proc.devRef .tc b) :=
  StableHlo.after_of_writes_sub s2 (U1 m c) writes2 hb
theorem keep3 {b : Ref sig .tc} (hb : b ∉ wr3) : U3 m c (Proc.devRef .tc b) = U2 m c (Proc.devRef .tc b) :=
  StableHlo.after_of_writes_sub s3 (U2 m c) writes3 hb
theorem keep4 {b : Ref sig .tc} (hb : b ∉ wr4) : U4 m c (Proc.devRef .tc b) = U3 m c (Proc.devRef .tc b) :=
  StableHlo.after_of_writes_sub s4 (U3 m c) writes4 hb
theorem keep5 {b : Ref sig .tc} (hb : b ∉ wr5) : U5 m c (Proc.devRef .tc b) = U4 m c (Proc.devRef .tc b) :=
  StableHlo.after_of_writes_sub s5 (U4 m c) writes5 hb
theorem keep6 {b : Ref sig .tc} (hb : b ∉ wr6) : U6 m c (Proc.devRef .tc b) = U5 m c (Proc.devRef .tc b) :=
  StableHlo.after_of_writes_sub s6 (U5 m c) writes6 hb
theorem keep7 {b : Ref sig .tc} (hb : b ∉ wr7) : U7 m c (Proc.devRef .tc b) = U6 m c (Proc.devRef .tc b) :=
  StableHlo.after_of_writes_sub s7 (U6 m c) writes7 hb

/-- A buffer no stretch up to the k-th writes is as launched after it. -/
theorem kept2 {b : Ref sig .tc} (h1 : b ∉ wr1) (h2 : b ∉ wr2) : U2 m c (Proc.devRef .tc b) = m ((c.tc : Thread nD τ).loc b) :=
  (keep2 m c h2).trans (keep1 m c h1)
theorem kept4 {b : Ref sig .tc} (h1 : b ∉ wr1) (h2 : b ∉ wr2) (h3 : b ∉ wr3) (h4 : b ∉ wr4) :
    U4 m c (Proc.devRef .tc b) = m ((c.tc : Thread nD τ).loc b) :=
  (keep4 m c h4).trans ((keep3 m c h3).trans (kept2 m c h1 h2))
theorem kept5 {b : Ref sig .tc} (h1 : b ∉ wr1) (h2 : b ∉ wr2) (h3 : b ∉ wr3) (h4 : b ∉ wr4) (h5 : b ∉ wr5) :
    U5 m c (Proc.devRef .tc b) = m ((c.tc : Thread nD τ).loc b) :=
  (keep5 m c h5).trans (kept4 m c h1 h2 h3 h4)
theorem kept6 {b : Ref sig .tc} (h1 : b ∉ wr1) (h2 : b ∉ wr2) (h3 : b ∉ wr3) (h4 : b ∉ wr4) (h5 : b ∉ wr5) (h6 : b ∉ wr6) :
    U6 m c (Proc.devRef .tc b) = m ((c.tc : Thread nD τ).loc b) :=
  (keep6 m c h6).trans (kept5 m c h1 h2 h3 h4 h5)
theorem kept7 {b : Ref sig .tc} (h1 : b ∉ wr1) (h2 : b ∉ wr2) (h3 : b ∉ wr3) (h4 : b ∉ wr4) (h5 : b ∉ wr5) (h6 : b ∉ wr6)
    (h7 : b ∉ wr7) : U7 m c (Proc.devRef .tc b) = m ((c.tc : Thread nD τ).loc b) :=
  (keep7 m c h7).trans (kept6 m c h1 h2 h3 h4 h5 h6)

/-! ## The stretches' results -/

/-- The first stretch: the edge list's source row. -/
theorem U1_v1 : U1 m c (Proc.devRef .tc main_v1) = Cert.Spec.src (m ((c.tc : Thread nD τ).loc main_arg2)) := by
  show StableHlo.after s1 (launchContents m c) (Proc.devRef .tc main_v1) = _
  simp only [s1, ops, List.take_succ_cons, List.take_zero, List.drop_succ_cons, List.drop_zero]
  after_results
  rfl

/-- The first stretch: the edge list's destination row. -/
theorem U1_v3 : U1 m c (Proc.devRef .tc main_v3) = Cert.Spec.dst (m ((c.tc : Thread nD τ).loc main_arg2)) := by
  show StableHlo.after s1 (launchContents m c) (Proc.devRef .tc main_v3) = _
  simp only [s1, ops, List.take_succ_cons, List.take_zero, List.drop_succ_cons, List.drop_zero]
  after_results
  rfl

set_option maxHeartbeats 2000000 in
/-- The first stretch: the input layer. -/
theorem U1_v13 : U1 m c (Proc.devRef .tc main_v13) = Cert.Spec.lin (m ((c.tc : Thread nD τ).loc main_arg0)) (m ((c.tc : Thread nD τ).loc main_arg4)) (m ((c.tc : Thread nD τ).loc main_arg5)) (m ((c.tc : Thread nD τ).loc main_arg6)) := by
  show StableHlo.after s1 (launchContents m c) (Proc.devRef .tc main_v13) = _
  simp only [s1, ops, List.take_succ_cons, List.take_zero, List.drop_succ_cons, List.drop_zero]
  after_results_simp
  rfl

/-- The edge list's two rows are still there when the fourth stretch reads them. -/
theorem U3_v1 : U3 m c (Proc.devRef .tc main_v1) = Cert.Spec.src (m ((c.tc : Thread nD τ).loc main_arg2)) :=
  (keep3 m c (b := main_v1) (by decide)).trans ((keep2 m c (b := main_v1) (by decide)).trans (U1_v1 m c))
theorem U3_v3 : U3 m c (Proc.devRef .tc main_v3) = Cert.Spec.dst (m ((c.tc : Thread nD τ).loc main_arg2)) :=
  (keep3 m c (b := main_v3) (by decide)).trans ((keep2 m c (b := main_v3) (by decide)).trans (U1_v3 m c))

set_option maxHeartbeats 2000000 in
/-- The second stretch: message passing on the input layer. -/
theorem U2_v23 : U2 m c (Proc.devRef .tc main_v23)
    = Cert.Spec.agg (Cert.Spec.lin (m ((c.tc : Thread nD τ).loc main_arg0)) (m ((c.tc : Thread nD τ).loc main_arg4)) (m ((c.tc : Thread nD τ).loc main_arg5)) (m ((c.tc : Thread nD τ).loc main_arg6))) (m ((c.tc : Thread nD τ).loc main_arg2)) := by
  show StableHlo.after s2 (U1 m c) (Proc.devRef .tc main_v23) = _
  simp only [s2, ops, List.take_succ_cons, List.take_zero, List.drop_succ_cons, List.drop_zero]
  after_results_simp
  rw [U1_v1 m c, U1_v3 m c, U1_v13 m c]
  rfl

set_option maxHeartbeats 2000000 in
/-- The third stretch: the first convolution's dense layer. -/
theorem U3_v35 : U3 m c (Proc.devRef .tc main_v35) = Cert.Spec.h1 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after s3 (U2 m c) (Proc.devRef .tc main_v35) = _
  simp only [s3, ops, List.take_succ_cons, List.take_zero, List.drop_succ_cons, List.drop_zero]
  after_results_simp
  rw [U2_v23 m c, keep2 m c (b := main_v13) (by decide), U1_v13 m c,
    kept2 m c (b := main_arg7) (by decide) (by decide), kept2 m c (b := main_arg8) (by decide) (by decide),
    kept2 m c (b := main_arg9) (by decide) (by decide), kept2 m c (b := main_arg10) (by decide) (by decide)]
  rfl

set_option maxHeartbeats 2000000 in
/-- The fourth stretch: message passing on the first convolution's features. -/
theorem U4_v45 : U4 m c (Proc.devRef .tc main_v45) = Cert.Spec.agg (Cert.Spec.h1 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2)) := by
  show StableHlo.after s4 (U3 m c) (Proc.devRef .tc main_v45) = _
  simp only [s4, ops, List.take_succ_cons, List.take_zero, List.drop_succ_cons, List.drop_zero]
  after_results_simp
  rw [U3_v1 m c, U3_v3 m c, U3_v35 m c]
  rfl

set_option maxHeartbeats 2000000 in
/-- The fifth stretch: the second convolution's dense layer. -/
theorem U5_v57 : U5 m c (Proc.devRef .tc main_v57) = Cert.Spec.h2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after s5 (U4 m c) (Proc.devRef .tc main_v57) = _
  simp only [s5, ops, List.take_succ_cons, List.take_zero, List.drop_succ_cons, List.drop_zero]
  after_results_simp
  rw [U4_v45 m c, keep4 m c (b := main_v35) (by decide), U3_v35 m c,
    kept4 m c (b := main_arg11) (by decide) (by decide) (by decide) (by decide), kept4 m c (b := main_arg12) (by decide) (by decide) (by decide) (by decide),
    kept4 m c (b := main_arg13) (by decide) (by decide) (by decide) (by decide), kept4 m c (b := main_arg14) (by decide) (by decide) (by decide) (by decide)]
  rfl

set_option maxHeartbeats 2000000 in
/-- The sixth stretch: mean pooling by graph. -/
theorem U6_v69 : U6 m c (Proc.devRef .tc main_v69) = Cert.Spec.pool (Cert.Spec.h2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg3)) := by
  show StableHlo.after s6 (U5 m c) (Proc.devRef .tc main_v69) = _
  simp only [s6, ops, List.take_succ_cons, List.take_zero, List.drop_succ_cons, List.drop_zero]
  after_results_simp
  rw [U5_v57 m c, kept5 m c (b := main_arg3) (by decide) (by decide) (by decide) (by decide) (by decide)]
  rfl

set_option maxHeartbeats 8000000 in
/-- The seventh stretch: the output layer; so the result buffer ends at the network's output of the arguments. -/
theorem U7_v84 : U7 m c (Proc.devRef .tc main_v84) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  show StableHlo.after s7 (U6 m c) (Proc.devRef .tc main_v84) = _
  simp only [s7, ops, List.take_succ_cons, List.take_zero, List.drop_succ_cons, List.drop_zero]
  after_results
  rw [U6_v69 m c, kept6 m c (b := main_arg1) (by decide) (by decide) (by decide) (by decide) (by decide) (by decide), kept6 m c (b := main_arg15) (by decide) (by decide) (by decide) (by decide) (by decide) (by decide),
    kept6 m c (b := main_arg16) (by decide) (by decide) (by decide) (by decide) (by decide) (by decide), kept6 m c (b := main_arg17) (by decide) (by decide) (by decide) (by decide) (by decide) (by decide),
    kept6 m c (b := main_arg18) (by decide) (by decide) (by decide) (by decide) (by decide) (by decide), kept6 m c (b := main_arg19) (by decide) (by decide) (by decide) (by decide) (by decide) (by decide)]
  rfl

/-- A buffer no operation of the line writes is as launched after the whole line. -/
theorem arg_kept {b : Ref sig .tc} (h1 : b ∉ wr1) (h2 : b ∉ wr2) (h3 : b ∉ wr3) (h4 : b ∉ wr4) (h5 : b ∉ wr5) (h6 : b ∉ wr6)
    (h7 : b ∉ wr7) : StableHlo.after ops (launchContents m c) (Proc.devRef .tc b) = m ((c.tc : Thread nD τ).loc b) :=
  (congrFun (after_ops m c) _).trans (kept7 m c h1 h2 h3 h4 h5 h6 h7)

/-! ## The run -/

set_option maxHeartbeats 8000000 in
/-- Every weakly fair execution of the reference's @main terminates, nothing faulting, with the result buffer at the
    network's output of the arguments and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v84).trans ((congrFun (after_ops m c) _).trans (U7_v84 m c)),
      (h c main_arg0).trans (arg_kept m c (by decide) (by decide) (by decide) (by decide) (by decide) (by decide) (by decide)),
      (h c main_arg1).trans (arg_kept m c (by decide) (by decide) (by decide) (by decide) (by decide) (by decide) (by decide)),
      (h c main_arg2).trans (arg_kept m c (by decide) (by decide) (by decide) (by decide) (by decide) (by decide) (by decide)),
      (h c main_arg3).trans (arg_kept m c (by decide) (by decide) (by decide) (by decide) (by decide) (by decide) (by decide)),
      (h c main_arg4).trans (arg_kept m c (by decide) (by decide) (by decide) (by decide) (by decide) (by decide) (by decide)),
      (h c main_arg5).trans (arg_kept m c (by decide) (by decide) (by decide) (by decide) (by decide) (by decide) (by decide)),
      (h c main_arg6).trans (arg_kept m c (by decide) (by decide) (by decide) (by decide) (by decide) (by decide) (by decide)),
      (h c main_arg7).trans (arg_kept m c (by decide) (by decide) (by decide) (by decide) (by decide) (by decide) (by decide)),
      (h c main_arg8).trans (arg_kept m c (by decide) (by decide) (by decide) (by decide) (by decide) (by decide) (by decide)),
      (h c main_arg9).trans (arg_kept m c (by decide) (by decide) (by decide) (by decide) (by decide) (by decide) (by decide)),
      (h c main_arg10).trans (arg_kept m c (by decide) (by decide) (by decide) (by decide) (by decide) (by decide) (by decide)),
      (h c main_arg11).trans (arg_kept m c (by decide) (by decide) (by decide) (by decide) (by decide) (by decide) (by decide)),
      (h c main_arg12).trans (arg_kept m c (by decide) (by decide) (by decide) (by decide) (by decide) (by decide) (by decide)),
      (h c main_arg13).trans (arg_kept m c (by decide) (by decide) (by decide) (by decide) (by decide) (by decide) (by decide)),
      (h c main_arg14).trans (arg_kept m c (by decide) (by decide) (by decide) (by decide) (by decide) (by decide) (by decide)),
      (h c main_arg15).trans (arg_kept m c (by decide) (by decide) (by decide) (by decide) (by decide) (by decide) (by decide)),
      (h c main_arg16).trans (arg_kept m c (by decide) (by decide) (by decide) (by decide) (by decide) (by decide) (by decide)),
      (h c main_arg17).trans (arg_kept m c (by decide) (by decide) (by decide) (by decide) (by decide) (by decide) (by decide)),
      (h c main_arg18).trans (arg_kept m c (by decide) (by decide) (by decide) (by decide) (by decide) (by decide) (by decide)),
      (h c main_arg19).trans (arg_kept m c (by decide) (by decide) (by decide) (by decide) (by decide) (by decide) (by decide))⟩)
    (run_seq scopedRefs_eq scopedSems_eq defs main (fun _ => ops) main_eq (fun _ => ops_sub) m ρ)

end Cert.RefVal

end
-- ==== Proof.lean ====
/-
  The kernel is a two-layer sum-aggregating graph network with a fingerprint head: an input layer, two convolutions
  (each a gather of source rows, a scatter-add into destination rows, then a dense layer on the aggregate and the node's
  own features), mean pooling by graph, and an output layer on the pooled features joined with an embedded fingerprint.
  Its program computes the four dense layers in four pallas regions, in row blocks of 2000 with operands narrowed to
  bf16 before each matrix product, and the irregular steps in host operations between them; the reference computes all
  of it in host operations. Over the extended reals a change of float format is the identity and a matrix product into
  a zero accumulator is the plain sum over the contracted axis, and a row of x · W depends on that row of x alone, so
  each region leaves exactly the dense layer of the arrays it finds (Proof/Region0 … Region3); the host stretches
  between the regions are the reference's own operations (Proof/Glue); and the reference's line of host operations, read
  stretch by stretch, is the same stage functions (Proof/RefStaged). Both programs therefore end with one function of the arguments, `Cert.Spec.G`.
  No law beyond that is used: the precondition is not opened. The three frames: the two kernel programs' are the
  generated frame certificates; the reference's is its run with the result dropped. The idealization rewrote
  nothing, so there is nothing to preserve.
-/
import proofs.«131736_j56994216017995_1_alg».proof.Defs
import proofs.«131736_j56994216017995_1_alg».proof.Proof.Gen.Kernel
import proofs.«131736_j56994216017995_1_alg».proof.Proof.Gen.Kernel.Frame
import proofs.«131736_j56994216017995_1_alg».proof.Proof.Gen.KernelIdeal
import proofs.«131736_j56994216017995_1_alg».proof.Proof.Gen.KernelIdeal.Frame
import proofs.«131736_j56994216017995_1_alg».proof.Proof.Gen.ReferenceIdeal
import proofs.«131736_j56994216017995_1_alg».proof.Proof.Gen.Pre_finite_inputs
import proofs.«131736_j56994216017995_1_alg».proof.Proof.RunNamed
import proofs.«131736_j56994216017995_1_alg».proof.Proof.Glue
import proofs.«131736_j56994216017995_1_alg».proof.Proof.RefStaged
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.RefVal.run (F := Ideal) m ρ)

/-- Both programs end with the network's output of the arguments: the kernel's result buffer by the walk through its
    regions and host stretches, the reference's by its run read stretch by stretch; the arguments agree. -/
theorem algebraic : Cert.algebraic_KernelIdeal_ReferenceIdeal := by
  intro m ρ m' ρ' _ hagree
  refine ⟨_, (θ_run Cert.KernelIdeal.defs _ _).mono
    (fun r h c => ⟨(h c).1.trans (Cert.KVal.kernel_value m ρ c), (h c).2⟩)
    (Cert.KernelIdeal.RunNamed.run (F := Ideal) m ρ), ?_⟩
  refine (θ_run Cert.ReferenceIdeal.defs _ _).mono (fun r h c => ⟨(h c).1.trans ?_, (h c).2⟩)
    (Cert.RefVal.run (F := Ideal) m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
